-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S640000 32 := broadcastInDim S640000 ![] bcast_S_S640000 main_c_6
  let main_v20 : IVec S640000 1 := cmpi .sge main_arg1 main_v19
  let main_c_7 : IVec S_ 32 := constantI S_ 32 10000#32
  let main_v21 : IVec S640000 32 := broadcastInDim S640000 ![] bcast_S_S640000 main_c_7
  let main_v22 : IVec S640000 1 := cmpi .slt main_arg1 main_v21
  let main_v23 : IVec S640000 1 := andi main_v20 main_v22
  let main_c_8 : IVec S_ 1 := constantI S_ 1 1#1
  let main_v24 : IVec S_ 1 := (fun x v => Host.reduce IntOp.andi x v reducesTo_S640000_S_d0 h_S_) main_v23 main_c_8
  let main_v25 : IVec S_ 1 := andi main_v18 main_v24
  main_v25

def fn {F : FTy → Type} [FloatOps F] (main_arg0 : FVec F S10000x128 .f32) (main_arg1 : IVec S640000 32) (main_arg2 : IVec S640000 32) (main_arg3 : FVec F S640000 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10112x128 : Shape := ⟨2, ![10112, 128]⟩
abbrev S640000x128 : Shape := ⟨2, ![640000, 128]⟩
abbrev S1024 : Shape := ⟨1, ![1024]⟩
abbrev S1024x128 : Shape := ⟨2, ![1024, 128]⟩
abbrev S10112x1 : Shape := ⟨2, ![10112, 1]⟩
abbrev S1x1024 : Shape := ⟨2, ![1, 1024]⟩
abbrev S10112x1024 : Shape := ⟨2, ![10112, 1024]⟩
abbrev S1024x1 : Shape := ⟨2, ![1024, 1]⟩
abbrev S2x10112x128 : Shape := ⟨3, ![2, 10112, 128]⟩
abbrev S512 : Shape := ⟨1, ![512]⟩
abbrev S512x128 : Shape := ⟨2, ![512, 128]⟩
abbrev S1x10112x128 : Shape := ⟨3, ![1, 10112, 128]⟩
abbrev S1x512 : Shape := ⟨2, ![1, 512]⟩
abbrev S10112x512 : Shape := ⟨2, ![10112, 512]⟩
abbrev S1x128 : Shape := ⟨2, ![1, 128]⟩

abbrev nBuf : Space → Nat
  | .hbm => 24
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S_, .f32⟩
  | .hbm, ⟨8, _⟩ => ⟨S10112x128, .f32⟩
  | .hbm, ⟨9, _⟩ => ⟨S10112x128, .bf16⟩
  | .hbm, ⟨10, _⟩ => ⟨S128x128, .bf16⟩
  | .hbm, ⟨11, _⟩ => ⟨S640000x128, .bf16⟩
  | .hbm, ⟨12, _⟩ => ⟨S2x10112x128, .f32⟩
  | .hbm, ⟨13, _⟩ => ⟨S1x10112x128, .f32⟩
  | .hbm, ⟨14, _⟩ => ⟨S10112x128, .f32⟩
  | .hbm, ⟨15, _⟩ => ⟨S1x10112x128, .f32⟩
  | .hbm, ⟨16, _⟩ => ⟨S10112x128, .f32⟩
  | .hbm, ⟨17, _⟩ => ⟨S10112x128, .f32⟩
  | .hbm, ⟨18, _⟩ => ⟨S10112x128, .bf16⟩
  | .hbm, ⟨19, _⟩ => ⟨S10112x128, .f32⟩
  | .hbm, ⟨20, _⟩ => ⟨S1x128, .f32⟩
  | .hbm, ⟨21, _⟩ => ⟨S10112x128, .f32⟩
  | .hbm, ⟨22, _⟩ => ⟨S10112x128, .f32⟩
  | .hbm, ⟨23, _⟩ => ⟨S10000x128, .f32⟩
  | .local _ .vmem, ⟨0, _⟩ => ⟨S1024, .i32⟩
  | .local _ .vmem, ⟨1, _⟩ => ⟨S1024, .i32⟩
  | .local _ .vmem, ⟨2, _⟩ => ⟨S1024, .f32⟩
  | .local _ .vmem, ⟨3, _⟩ => ⟨S1024, .f32⟩
  | .local _ .vmem, ⟨4, _⟩ => ⟨S10112x128, .bf16⟩
  | .local _ .vmem, ⟨5, _⟩ => ⟨S1024x128, .bf16⟩
  | .local _ .vmem, ⟨6, _⟩ => ⟨S1024x128, .bf16⟩
  | .local _ .vmem, ⟨7, _⟩ => ⟨S512, .i32⟩
  | .local _ .vmem, ⟨8, _⟩ => ⟨S512, .i32⟩
  | .local _ .vmem, ⟨9, _⟩ => ⟨S512x128, .bf16⟩
  | .local _ .vmem, ⟨10, _⟩ => ⟨S512x128, .bf16⟩
  | .local _ .vmem, ⟨11, _⟩ => ⟨S1x10112x128, .f32⟩
  | .local _ .vmem, ⟨12, _⟩ => ⟨S1x10112x128, .f32⟩
  | .local _ .vmem, ⟨13, _⟩ => ⟨S10112x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![625], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10112x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 625], ![false, false]⟩

def k1_cond2 (i : grid1.Coords) : BitVec 1 :=
  let arg1 : BitVec 32 := BitVec.ofNat 32 (i 1).val
  let c624_i32 : BitVec 32 := 624#32
  let v20 : BitVec 1 := Scalar.cmpi .eq arg1 c624_i32
  let v21 : BitVec 32 := Scalar.extui v20
  let c0_i32_7 : BitVec 32 := 0#32
  let v22 : BitVec 1 := Scalar.cmpi .ne v21 c0_i32_7
  v22

def cc1_transform_0 (i : grid1.Coords) : Fin 1 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  ![v1.toNat]

def cc1_transform_1 (i : grid1.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x10112x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  pads_S10000x128_S10112x128_01120_000 : S10000x128.Pads (![0, 0] : Fin 2 → Nat) ![112, 0] ![0, 0] S10112x128
  h_S_ : 0 < S_.numel
  bitsLt_bf16_f32 : FTy.bits .bf16 < FTy.bits .f32
  inb_S1024_S1024_0 : ∀ a, (![0] : Fin 1 → Nat) a + S1024.size a ≤ S1024.size a
  h_S1024 : 0 < S1024.numel
  iota_S10112x1_d0_w32 : S10112x1.Iotas .tc 32 [0]
  shapeCasts_S1024_S1x1024 : S1024.ShapeCasts S1x1024
  broadcasts_S10112x1_S10112x1024 : S10112x1.Broadcasts S10112x1024
  broadcasts_S1x1024_S10112x1024 : S1x1024.Broadcasts S10112x1024
  natLt_1_32 : 1 < 32
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  inb_S512_S512_0 : ∀ a, (![0] : Fin 1 → Nat) a + S512.size a ≤ S512.size a
  h_S512 : 0 < S512.numel
  shapeCasts_S512_S1x512 : S512.ShapeCasts S1x512
  broadcasts_S10112x1_S10112x512 : S10112x1.Broadcasts S10112x512
  broadcasts_S1x512_S10112x512 : S1x512.Broadcasts S10112x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x10112x128_S1x10112x128_0_0_0 : ∀ a, (![0, 0, 0] : Fin 3 → Nat) a + S1x10112x128.size a ≤ S1x10112x128.size a
  h_S1x10112x128 : 0 < S1x10112x128.numel
  shapeCasts_S1x10112x128_S10112x128 : S1x10112x128.ShapeCasts S10112x128
  shapeCasts_S10112x128_S1x10112x128 : S10112x128.ShapeCasts S1x10112x128
  slices_S2x10112x128_S1x10112x128_0_0_0 : S2x10112x128.Slices ![0, 0, 0] S1x10112x128
  slices_S2x10112x128_S1x10112x128_1_0_0 : S2x10112x128.Slices ![1, 0, 0] S1x10112x128
  bcast_S128_S1x128_1 : S128.BroadcastsInDim S1x128 (![1] : Fin 1 → Fin S1x128.rank)
  bcast_S1x128_S10112x128_0_1 : S1x128.BroadcastsInDim S10112x128 (![0, 1] : Fin 2 → Fin S10112x128.rank)
  slices_S10112x128_S10000x128_0_0 : S10112x128.Slices ![0, 0] S10000x128
  dot_S10112x1024_S10112x128_S1024x128_0_0_1_1_n_n_wf : DotDims.WF S10112x1024 S10112x128 S1024x128 [0] [0] [1] [1] [] []
  dot_S10112x512_S512x128_S10112x128_1_0_0_1_n_n_wf : DotDims.WF S10112x512 S512x128 S10112x128 [1] [0] [0] [1] [] []
  dot_S10112x128_S128x128_S10112x128_1_0_0_1_n_n_wf : DotDims.WF S10112x128 S128x128 S10112x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S640000.size a
  hwx0_0 : ∀ i : grid0.Coords, EltTy.bits .i32 = 32 ∨ (Rect.block (s := S640000) S1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S640000.size a
  hwx0_1 : ∀ i : grid0.Coords, EltTy.bits .f32 = 32 ∨ (Rect.block (s := S640000) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10112x128.size a ≤ S10112x128.size a
  hwx0_2 : ∀ i : grid0.Coords, EltTy.bits .bf16 = 32 ∨ (Rect.block (s := S10112x128) S10112x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S640000x128.size a
  hwx0_3 : ∀ i : grid0.Coords, EltTy.bits .bf16 = 32 ∨ (Rect.block (s := S640000x128) S1024x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512.size a ≤ S640000.size a
  hwx1_0 : ∀ i : grid1.Coords, EltTy.bits .i32 = 32 ∨ (Rect.block (s := S640000) S512.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S640000x128.size a
  hwx1_1 : ∀ i : grid1.Coords, EltTy.bits .bf16 = 32 ∨ (Rect.block (s := S640000x128) S512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x10112x128.size a ≤ S2x10112x128.size a
  hwx1_2 : ∀ i : grid1.Coords, EltTy.bits .f32 = 32 ∨ (Rect.block (s := S2x10112x128) S1x10112x128.size (cc1_transform_2 i) (hinb1_2 i)).WholeWords (EltTy.packing .f32)

variable [Facts₀]

def dot_S10112x1024_S10112x128_S1024x128_0_0_1_1_n_n : DotDims S10112x1024 S10112x128 S1024x128 where
  lhsContracting := [0]
  rhsContracting := [0]
  lhsNonContracting := [1]
  rhsNonContracting := [1]
  lhsBatch := []
  rhsBatch := []
  wf := dot_S10112x1024_S10112x128_S1024x128_0_0_1_1_n_n_wf
def dot_S10112x512_S512x128_S10112x128_1_0_0_1_n_n : DotDims S10112x512 S512x128 S10112x128 where
  lhsContracting := [1]
  rhsContracting := [0]
  lhsNonContracting := [0]
  rhsNonContracting := [1]
  lhsBatch := []
  rhsBatch := []
  wf := dot_S10112x512_S512x128_S10112x128_1_0_0_1_n_n_wf
def dot_S10112x128_S128x128_S10112x128_1_0_0_1_n_n : DotDims S10112x128 S128x128 S10112x128 where
  lhsContracting := [1]
  rhsContracting := [0]
  lhsNonContracting := [0]
  rhsNonContracting := [1]
  lhsBatch := []
  rhsBatch := []
  wf := dot_S10112x128_S128x128_S10112x128_1_0_0_1_n_n_wf

abbrev win0_0 : Pipeline.Window sig grid0 :=
  Pipeline.Window.ofSpec (Memref.whole main_arg1) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10112x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x10112x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S640000x1, .f32⟩
  | .hbm, ⟨16, _⟩ => ⟨S640000x128, .f32⟩
  | .hbm, ⟨17, _⟩ => ⟨S640000x128, .f32⟩
  | .hbm, ⟨18, _⟩ => ⟨S_, .f32⟩
  | .hbm, ⟨19, _⟩ => ⟨S10000x128, .f32⟩
  | .hbm, ⟨20, _⟩ => ⟨S640000x1, .i32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KB.R0.lean ====
/- Region 0 (the gather-and-scale call) of the frame: the blocks its four windows read, what the body
   leaves in the output window's buffer, the body's triple, the proof data at the region's entry contents, and
   the body obligation at every point of its grid. -/
import proofs.«413453_j67723044323421_3_alg».proof.Proof.Gen.Kernel.Launch
import proofs.«413453_j67723044323421_3_alg».proof.Proof.Gen.Kernel.Skeleton
import proofs.«413453_j67723044323421_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source-index tile: its staging buffer holds the tile's block at every point, for any proof data whose array
    is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The edge-weight tile, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole table: fetched at the first point only, and its block index never moves, so every later point finds
    the same block the first fetch put there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rE0 : Rect S1024 := Rect.unit (s := S1024) ![0] S1024.size inb_S1024_S1024_0
abbrev rX0 : Rect S10112x128 := Rect.unit (s := S10112x128) ![0, 0] S10112x128.size inb_S10112x128_S10112x128_0_0
abbrev rO0 : Rect S1024x128 := Rect.unit (s := S1024x128) ![0, 0] S1024x128.size inb_S1024x128_S1024x128_0_0

/-! ## What the body leaves in the output window's buffer -/

/-- The message tile's staging buffer after the body, from the three input blocks: one store of the whole tile,
    whose payload is the gathered rows scaled by the edge weights. -/
def out0_3 (x0 : Vec F S1024 .i32) (x1 : Vec F S1024 .f32) (x2 : Vec F S10112x128 .bf16) : Vec F S1024x128 .bf16 :=
  View.canon [⟨rO0, k0_pay1 (View.ld x0 rE0) (View.ld x1 rE0) (View.ld x2 rX0)⟩]

/-- The one store is of the whole tile, so it covers the buffer. -/
theorem cover0_3 (p0 : Vec F S1024x128 .bf16) (y : S1024x128.Idx) :
    ∃ pc ∈ ([⟨rO0, p0⟩] : List (View.Piece (Elt F) S1024x128 .bf16)), y ∈ pc.1.set :=
  View.cover_of_tiled [⟨rO0, p0⟩] S1024x128.size (by rfl) y

/-! ## The body's triple -/

set_option maxHeartbeats 1000000 in
/-- The kernel body on whole staging memrefs, the three inputs' at contents `x0`, `x1`, `x2` and the output's at
    anything, runs to the continuation holding the inputs' as they were and the output's at `out0_3` of them: the
    body reads each input whole, reads the output (the value is dropped) and stores the whole tile once. -/
theorem sound_kernel0 (c : Dev nD) (E : Set ℕ) (i : grid0.Coords)
    (arg0 : Memref sig .tc .vmem S1024 .i32) (harg0 : arg0.IsWhole) (arg1 : Memref sig .tc .vmem S1024 .f32) (harg1 : arg1.IsWhole)
    (arg2 : Memref sig .tc .vmem S10112x128 .bf16) (harg2 : arg2.IsWhole) (arg3 : Memref sig .tc .vmem S1024x128 .bf16) (harg3 : arg3.IsWhole)
    (x0 : Vec F S1024 .i32) (x1 : Vec F S1024 .f32) (x2 : Vec F S10112x128 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__gather_scale_kernel i arg0 harg0 arg1 harg1 arg2 harg2 arg3 harg3) K := by
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t` each
    input's buffer at its block and the output's at `out0_3` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0
end Cert.Kernel.Hand
end
-- ==== Proof.KB.R1Base.lean ====
import proofs.«413453_j67723044323421_3_alg».proof.Proof.Gen.Kernel.Launch
import proofs.«413453_j67723044323421_3_alg».proof.Proof.Gen.Kernel.Skeleton
import proofs.«413453_j67723044323421_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the scatter call), what its three runs share

The scatter call walks a grid of 2 × 625 points. Each half `p` accumulates, in a scratch array carried from point to
point, the sum over its 625 tiles of one-hot(dst tile) · msgs tile; the scratch is zeroed at the first point of the
half (`k = 0`) and copied to the half's output block at its last point (`k = 624`). Everything here is stated at a
PARAMETER `V`: the contents of the core's buffers when the region is entered. -/

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the dst tile): its current staging buffer holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the msgs tile): likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions -/

/-- The body's first condition, from the grid coordinates: the inner coordinate `k` is 0 (the scratch is zeroed). -/
abbrev cond1_0 (i : grid1.Coords) : Prop := (Scalar.cmpi .ne (Scalar.extui (Scalar.cmpi .eq (BitVec.ofNat 32 (i 1).val) 0#32)) 0#32) = 1#1
/-- It holds at the linear positions ≡ 0 (mod 625): the first point of each half. -/
theorem hcond1_0 : ∀ t : Fin cfg1.N, cond1_0 (grid1.coords t) ↔ t.val % 625 = 0 :=
  (by decide +kernel : ∀ t : Fin grid1.N, cond1_0 (grid1.coords t) ↔ t.val % 625 = 0)

/-- The body's second condition: `k = 624` (the scratch is copied to the output block). -/
abbrev cond1_1 (i : grid1.Coords) : Prop := k1_cond2 i = 1#1
/-- It holds at the linear positions ≡ 624 (mod 625): the last point of each half. -/
theorem hcond1_1 : ∀ t : Fin cfg1.N, cond1_1 (grid1.coords t) ↔ t.val % 625 = 624 :=
  (by decide +kernel : ∀ t : Fin grid1.N, cond1_1 (grid1.coords t) ↔ t.val % 625 = 624)

/-! ## Where the windows are idle -/

/-- The two inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- At a first point of a half the output window is idle (nothing is stored into it) -/
theorem idleAt1_2_A : ∀ t : Fin cfg1.N, cond1_0 (grid1.coords t) → ¬cond1_1 (grid1.coords t) → cfg1.idle 2 (grid1.coords t) = true := by decide +kernel
/-- and its block is not written back there. -/
theorem noFlush1_2_A : ∀ t : Fin cfg1.N, cond1_0 (grid1.coords t) → ¬cond1_1 (grid1.coords t) → (cfg1.win 2).flush t = false := by decide +kernel
/-- At a middle point of a half the output window is idle -/
theorem idleAt1_2_B : ∀ t : Fin cfg1.N, ¬cond1_0 (grid1.coords t) → ¬cond1_1 (grid1.coords t) → cfg1.idle 2 (grid1.coords t) = true := by decide +kernel
/-- and its block is not written back there. -/
theorem noFlush1_2_B : ∀ t : Fin cfg1.N, ¬cond1_0 (grid1.coords t) → ¬cond1_1 (grid1.coords t) → (cfg1.win 2).flush t = false := by decide +kernel
/-- At the last point of a half the output window is live: the body stores the whole block. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated (any whole buffer of the shape reads
    the same back). -/
abbrev VO1_2 : View sig .tc .vmem S1x10112x128 .f32 := (Memref.whole cc1_stg2_0 : Memref sig .tc .vmem S1x10112x128 .f32).view
/-- Each window's current staging memref at point `t`, and its wholeness. -/
abbrev ms1_0 (t : Fin cfg1.N) : Memref sig .tc .vmem S512 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x10112x128 .f32 := win1_2.stage (cfg1.slots t 2)
abbrev hs1_2 (t : Fin cfg1.N) : (ms1_2 t).IsWhole := hstage1_2 ((cfg1.slots t 2).cast nbuf1_2)
/-- The scratch accumulator: a whole scoped buffer of the call's own, passed beside the windows. -/
abbrev scM1_0 : Memref sig .tc .vmem S10112x128 .f32 := Memref.whole cc1_scratch0
/-- The same as a view: what the scratch holds is stated through it. -/
abbrev VS1_0 : View sig .tc .vmem S10112x128 .f32 := scM1_0.view

/-! ## The region's invariant, opened -/

/-- The core's scoped buffers that are no staging buffer of this call, with the scratch's place held by `S`: the seven
    staging buffers of the gather call, each whole at some contents, then `S`. -/
abbrev scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- What the launch hands the region: the seven foreign staging buffers at anything, the scratch owned at some
    contents, the generator register at some state. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KB.R1RunA.lean ====
import proofs.«413453_j67723044323421_3_alg».proof.Proof.KB.R1Base

-- membership of an index in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body at a FIRST point of a half (`k = 0`, not `k = 624`), on whole memrefs: the two inputs at their blocks, the
    output's buffer (idle here) at any contents `xi2`, the scratch at anything. It runs to a continuation that holds the
    inputs and the output's buffer as they were and the scratch with the pieces `LS0` written: the zero fill, then the
    accumulation of one-hot(dst) · msgs onto it. No piece is stored into the output. -/
noncomputable def kernelRun1_A (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : cond1_0 i) (hc1 : ¬cond1_1 i)
    (x0 : Vec F S512 .i32) (x1 : Vec F S512x128 .bf16) :
    Σ' (L2 : List (View.Piece (Elt F) S1x10112x128 .f32)), { LS0 : List (View.Piece (Elt F) S10112x128 .f32) //
      ∀ (xi2 : Vec F S1x10112x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.R1RunB.lean ====
import proofs.«413453_j67723044323421_3_alg».proof.Proof.KB.R1RunA

-- membership of an index in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body at a MIDDLE point of a half (neither `k = 0` nor `k = 624`): the inputs at their blocks, the output's buffer
    (idle here) at any contents `xi2`, the scratch at what the point before left (`xs0`). It runs to a continuation that
    holds the inputs and the output's buffer as they were and the scratch with the piece `LS0` written: `xs0` plus
    one-hot(dst) · msgs. No piece is stored into the output. -/
noncomputable def kernelRun1_B (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : ¬cond1_1 i)
    (x0 : Vec F S512 .i32) (x1 : Vec F S512x128 .bf16) (xs0 : Vec F S10112x128 .f32) :
    Σ' (L2 : List (View.Piece (Elt F) S1x10112x128 .f32)), { LS0 : List (View.Piece (Elt F) S10112x128 .f32) //
      ∀ (xi2 : Vec F S1x10112x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.R1RunC.lean ====
import proofs.«413453_j67723044323421_3_alg».proof.Proof.KB.R1RunB

-- membership of an index in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body at the LAST point of a half (`k = 624`): the inputs at their blocks, the output's buffer at anything, the
    scratch at what the point before left (`xs0`). It runs to a continuation that holds the inputs as they were, the
    scratch with the piece `LS0` written (`xs0` plus one-hot(dst) · msgs) and the output's buffer with the piece `L2`
    written: that sum, reshaped to the output block. -/
noncomputable def kernelRun1_C (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : cond1_1 i)
    (x0 : Vec F S512 .i32) (x1 : Vec F S512x128 .bf16) (xs0 : Vec F S10112x128 .f32) :
    Σ' (L2 : List (View.Piece (Elt F) S1x10112x128 .f32)), { LS0 : List (View.Piece (Elt F) S10112x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.R1.lean ====
import proofs.«413453_j67723044323421_3_alg».proof.Proof.KB.R1RunC

-- membership of an index in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the scatter call): what the body leaves point by point, the proof data, the body obligation

Within a half `p` of the grid the scratch after point `k` is the sum over tiles `0..k` of one-hot(dst tile) · msgs tile,
started from zero at `k = 0`; the half's output block is that sum at `k = 624`. Here this is stated through the pieces
each case's run stores, read back over any buffer. -/

section Region1
variable (V : (c : Dev nD) → (b : Ref sig .tc) → Buf (Elt F) ((c : Thread nD τ).loc b))

/-! ## What each case leaves in the output's buffer and in the scratch -/

/-- Case A stores nothing into the output window (idle at its points, and not written back there): no pieces — a
    placeholder, junk read back, that nothing consults. -/
def out1_A_2 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : cond1_0 i) (hc1 : ¬cond1_1 i)
    (x0 : Vec F S512 .i32) (x1 : Vec F S512x128 .bf16) : Vec F S1x10112x128 .f32 :=
  VO1_2.read (Elt F) (VO1_2.writes (Elt F) VO1_2.junk (kernelRun1_A c i arg2 harg2 arg3 harg3 arg4 harg4 arg5 harg5 hc0 hc1 x0 x1).1)

/-- Case A's pieces for the scratch cover it: each is the whole array. -/
theorem scover1_A_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : cond1_0 i) (hc1 : ¬cond1_1 i)
    (x0 : Vec F S512 .i32) (x1 : Vec F S512x128 .bf16) (y : S10112x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S10112x128.size (by sl_kernel_rfl) y

/-- What case A leaves in the scratch: its pieces read back over junk. -/
def sout1_A_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : cond1_0 i) (hc1 : ¬cond1_1 i)
    (x0 : Vec F S512 .i32) (x1 : Vec F S512x128 .bf16) : Vec F S10112x128 .f32 :=
  VS1_0.read (Elt F) (VS1_0.writes (Elt F) VS1_0.junk (kernelRun1_A c i arg2 harg2 arg3 harg3 arg4 harg4 arg5 harg5 hc0 hc1 x0 x1).2.1)

/-- Case B stores nothing into the output window (idle at its points, and not written back there): no pieces — a
    placeholder, junk read back, that nothing consults. -/
def out1_B_2 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : ¬cond1_1 i)
    (x0 : Vec F S512 .i32) (x1 : Vec F S512x128 .bf16) (xs0 : Vec F S10112x128 .f32) : Vec F S1x10112x128 .f32 :=
  VO1_2.read (Elt F) (VO1_2.writes (Elt F) VO1_2.junk (kernelRun1_B c i arg2 harg2 arg3 harg3 arg4 harg4 arg5 harg5 hc0 hc1 x0 x1 xs0).1)

/-- Case B's pieces for the scratch cover it: each is the whole array. -/
theorem scover1_B_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : ¬cond1_1 i)
    (x0 : Vec F S512 .i32) (x1 : Vec F S512x128 .bf16) (xs0 : Vec F S10112x128 .f32) (y : S10112x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S10112x128.size (by sl_kernel_rfl) y

/-- What case B leaves in the scratch: its pieces read back over junk. -/
def sout1_B_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : ¬cond1_1 i)
    (x0 : Vec F S512 .i32) (x1 : Vec F S512x128 .bf16) (xs0 : Vec F S10112x128 .f32) : Vec F S10112x128 .f32 :=
  VS1_0.read (Elt F) (VS1_0.writes (Elt F) VS1_0.junk (kernelRun1_B c i arg2 harg2 arg3 harg3 arg4 harg4 arg5 harg5 hc0 hc1 x0 x1 xs0).2.1)

/-- Case C's one piece for the output window is the whole block, so its pieces cover it. -/
theorem cover1_C_2 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : cond1_1 i)
    (x0 : Vec F S512 .i32) (x1 : Vec F S512x128 .bf16) (xs0 : Vec F S10112x128 .f32) (y : S1x10112x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x10112x128.size (by sl_kernel_rfl) y

/-- What case C leaves in the output's staging buffer: its piece read back over junk. -/
def out1_C_2 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : cond1_1 i)
    (x0 : Vec F S512 .i32) (x1 : Vec F S512x128 .bf16) (xs0 : Vec F S10112x128 .f32) : Vec F S1x10112x128 .f32 :=
  VO1_2.read (Elt F) (VO1_2.writes (Elt F) VO1_2.junk (kernelRun1_C c i arg2 harg2 arg3 harg3 arg4 harg4 arg5 harg5 hc0 hc1 x0 x1 xs0).1)

/-- Case C's pieces for the scratch cover it: each is the whole array. -/
theorem scover1_C_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : cond1_1 i)
    (x0 : Vec F S512 .i32) (x1 : Vec F S512x128 .bf16) (xs0 : Vec F S10112x128 .f32) (y : S10112x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S10112x128.size (by sl_kernel_rfl) y

/-- What case C leaves in the scratch: its pieces read back over junk. -/
def sout1_C_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : cond1_1 i)
    (x0 : Vec F S512 .i32) (x1 : Vec F S512x128 .bf16) (xs0 : Vec F S10112x128 .f32) : Vec F S10112x128 .f32 :=
  VS1_0.read (Elt F) (VS1_0.writes (Elt F) VS1_0.junk (kernelRun1_C c i arg2 harg2 arg3 harg3 arg4 harg4 arg5 harg5 hc0 hc1 x0 x1 xs0).2.1)

/-! ## What the output's buffer and the scratch hold after each point -/

/-- THE ACCUMULATION. What the output window's staging buffer and the scratch hold after the body at linear position
    `n`: the case `n mod 625` selects, run at the point's memrefs and input blocks, the scratch it reads at what
    position `n - 1` left. The two conditions never hold together. -/
def outsAt1 (c : Dev nD) : (n : ℕ) → n < cfg1.N → Vec F S1x10112x128 .f32 × Vec F S10112x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 625 = 0 then
      if h1 : (n + 1) % 625 = 624 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 625 = 624 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first point of a half. -/
theorem outsAt1_A (c : Dev nD) (t : Fin cfg1.N) (h0 : t.val % 625 = 0) (h1 : ¬t.val % 625 = 624) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point of a half: over what the point before left in the scratch. -/
theorem outsAt1_B (c : Dev nD) (t : Fin cfg1.N) (h0 : ¬t.val % 625 = 0) (h1 : ¬t.val % 625 = 624) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point of a half: over what the point before left in the scratch. -/
theorem outsAt1_C (c : Dev nD) (t : Fin cfg1.N) (h0 : ¬t.val % 625 = 0) (h1 : t.val % 625 = 624) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The gather call's seven staging buffers, each whole at some contents: scoped buffers this region never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scoped rest with the scratch's place held by `S`, the seven foreign buffers gathered. -/
theorem scoped1_eq (c : Dev nD) (S : sProp 𝕄) : scoped1 c S = iprop(others1 c ∗ S) := by
  unfold others1
  have h₁ : scoped1 c S ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ S) := by
    iintro ⟨HA0, HA1, HA2, HA3, HA4, HA5, HA6, HS⟩
    isplitr [HS]
    swap; · iexact HS
    isplitl [HA0]; · iexact HA0
    isplitl [HA1]; · iexact HA1
    isplitl [HA2]; · iexact HA2
    isplitl [HA3]; · iexact HA3
    isplitl [HA4]; · iexact HA4
    isplitl [HA5]; · iexact HA5
    iexact HA6
  have h₂ : iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ S) ⊢ scoped1 c S := by
    iintro ⟨⟨HA0, HA1, HA2, HA3, HA4, HA5, HA6⟩, HS⟩
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    iexact HS
  exact BI.equiv_iff.mp ⟨h₁, h₂⟩

/-- What the launch hands the region: the foreign buffers, the scratch owned at some contents, the generator register. -/
theorem PhiA1_eq' (c : Dev nD) :
    (Pipeline.ΦA spec1 c : sProp 𝕄)
      = iprop(iprop(others1 c ∗ (∃ d, owns (c : Thread nD τ) scM1_0 fullShare d)) ∗ (∃ r, prngReg c r)) := by
  rw [PhiA1_eq, scoped1_eq]

/-- The region invariant before position `n`: before the first point what the launch hands over (the scratch at
    anything); afterwards the foreign buffers unchanged, the scratch owned at what the point before left in it
    (`outsAt1`'s second component), the generator register at some state. -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(others1 c ∗ owns (c : Thread nD τ) scM1_0 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the scatter call on core `c`: the arrays as the region finds them (`V`); after the body at point
    `t` each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; `t mod 625` says which case the point is in, and that
    case's run applies. The invariant hands the body the scratch at what the point before left — at anything at the very
    first point, and also at the first point of the second half, where the body overwrites it before reading it — and takes
    it back at this point's contents, its pieces covering it. The foreign buffers, the generator register and what the
    core owes pass through unread; where the output window is idle its buffer is handed back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 1250 := lt_of_lt_of_eq t.isLt (show cfg1.N = 1250 from N_1)
  by_cases h0 : t.val % 625 = 0
  · by_cases h1 : t.val % 625 = 624
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq']
        iintro ⟨⟨⟨HA, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HA HS0 Hg]
        · isplitl [HA HS0]
          · isplitl [HA]; · iexact HA
            unfold owns; iexists _; isplitr
            swap; · iexact HS0
            ipureintro; exact View.read_writes_of_cover _ _ _ _ _ (scover1_A_0 _ _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HA, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HA HS0 Hg]
        · isplitl [HA HS0]
          · isplitl [HA]; · iexact HA
            unfold owns; iexists _; isplitr
            swap; · iexact HS0
            ipureintro; exact View.read_writes_of_cover _ _ _ _ _ (scover1_A_0 _ _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 625 = 624
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HA, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HA HS0 Hg]
      · isplitl [HA HS0]
        · isplitl [HA]; · iexact HA
          unfold owns; iexists _; isplitr
          swap; · iexact HS0
          ipureintro; exact View.read_writes_of_cover _ _ _ _ _ (scover1_C_0 _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HA, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HA HS0 Hg]
      · isplitl [HA HS0]
        · isplitl [HA]; · iexact HA
          unfold owns; iexists _; isplitr
          swap; · iexact HS0
          ipureintro; exact View.read_writes_of_cover _ _ _ _ _ (scover1_B_0 _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the scratch's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq']
  iintro ⟨⟨HA, HS0⟩, Hg⟩
  isplitl [HA HS0]
  · isplitl [HA]; · iexact HA
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 1250 := N_1; omega)

end Region1

end Cert.Kernel.Hand

end
-- ==== Proof.KB.Run.lean ====
/- The run of @main: what every unscoped buffer holds between the items (the launch contents, each host stretch applied,
   each region's output array at what its write-backs leave), the two kernel regions as segments over that thread state,
   the launch, and what the final memory holds: every unscoped buffer at the last contents, hence each argument array
   as launched and the returned array at the fold's value. -/
import proofs.«413453_j67723044323421_3_alg».proof.Proof.Gen.Kernel.Regions
import proofs.«413453_j67723044323421_3_alg».proof.Proof.KB.R0
import proofs.«413453_j67723044323421_3_alg».proof.Proof.KB.R1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: the buffers' contents between the items, the two regions' records, the launch and the return -/

variable (m : (ℓ : Loc nD τ sig) → Buf (Elt F) ℓ) (ρ : Dev nD → PrngReg)

/-- What region 0 is entered from: the launch contents after the three host stretches. -/
abbrev VA (c : Dev nD) (b : Ref sig .tc) : Buf (Elt F) ((c : Thread nD τ).loc b) := Gen.V3 m c b

/-- What region 0 leaves in its output array: the messages. -/
def msgsArr (c : Dev nD) : Buf (Elt F) ((c : Thread nD τ).loc main_v3) := (dat0 (VA m) c).arrAt 3 cfg0.N

/-- Every unscoped buffer after region 0: the messages' array at what the region leaves, every other as entered. -/
abbrev WB (c : Dev nD) : Valuation τ sig (Elt F) := Function.update (Gen.V3 m c) main_v3 (msgsArr m c)

/-- What region 1 is entered from. -/
abbrev VB (c : Dev nD) (b : Ref sig .tc) : Buf (Elt F) ((c : Thread nD τ).loc b) := WB m c b

/-- What region 1 leaves in its output array: the two halves' sums. -/
def partsArr (c : Dev nD) : Buf (Elt F) ((c : Thread nD τ).loc main_v4) := (dat1 (VB m) c).arrAt 2 cfg1.N

/-- Every unscoped buffer after region 1. -/
abbrev WC (c : Dev nD) : Valuation τ sig (Elt F) := Function.update (WB m c) main_v4 (partsArr m c)

/-- What the regions leave, as the contents of every reference after each item: read at the messages' array after
    region 0 and at the halves' array after region 1. -/
def outs : Gen.Outs (F := F) := fun J r c =>
  if J = 4 then WB m c r else if J = 5 then WC m c r else Gen.V3 m c r

theorem outs_4 (c : Dev nD) : outs m 4 main_v3 c = msgsArr m c := by
  unfold outs; rw [if_pos rfl]; exact Function.update_self ..

theorem outs_5 (c : Dev nD) : outs m 5 main_v4 c = partsArr m c := by
  unfold outs; rw [if_neg (by decide), if_pos rfl]; exact Function.update_self ..

/-- The contents after region 0, in the form the host segments are stated over. -/
theorem V4_eq (c : Dev nD) : Gen.V4 m (outs m) c = WB m c := by
  show Function.update (Gen.V3 m c) _ (outs m 4 main_v3 c) = Function.update (Gen.V3 m c) _ (msgsArr m c)
  rw [outs_4]

/-- The contents after region 1, likewise. -/
theorem V5_eq (c : Dev nD) : Gen.V5 m (outs m) c = WC m c := by
  show Function.update (Gen.V4 m (outs m) c) _ (outs m 5 main_v4 c) = Function.update (WB m c) _ (partsArr m c)
  rw [outs_5, V4_eq]

/-- Read at a reference: what region 1 is entered from is the contents after region 0. -/
theorem V4_apply (c : Dev nD) (b : Ref sig .tc) : Gen.V4 m (outs m) c b = VB m c b := congrFun (V4_eq m c) _

/-- After region 0 the messages' array holds what the region leaves. -/
theorem V4_main_v3 (c : Dev nD) : Gen.V4 m (outs m) c main_v3 = msgsArr m c := by
  show Function.update (Gen.V3 m c) (Proc.devRef .tc main_v3) (outs m 4 main_v3 c) (Proc.devRef .tc main_v3) = msgsArr m c
  rw [Function.update_self, outs_4]

/-- After region 1 the halves' array holds what the region leaves. -/
theorem V5_main_v4 (c : Dev nD) : Gen.V5 m (outs m) c main_v4 = partsArr m c := by
  show Function.update (Gen.V4 m (outs m) c) (Proc.devRef .tc main_v4) (outs m 5 main_v4 c) (Proc.devRef .tc main_v4) = partsArr m c
  rw [Function.update_self, outs_5]

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes,
    which is nothing. -/
abbrev R (c : Dev nD) : sProp 𝕄 := iprop((∃ r, prngReg c r) ∗ ∃ W, owes (c : Thread nD τ) (0 : CellTallies nD τ sig Unit) W)
/-- The same beside every item. -/
abbrev E : Fin 3 → Dev nD → sProp 𝕄 := fun _ => R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0's arrays at its exit -/

/-- Each array of region 0 holds at the exit what the contents after the region say: an input's array what it held,
    the messages' array what the write-backs leave. -/
theorem hF0 (c : Dev nD) (w : Fin cfg0.W) : (dat0 (VA m) c).arrAt w cfg0.N = Gen.V4 m (outs m) c (Pipeline.arrRef spec0 w) :=
  match w with
  | ⟨0, _⟩ => (((dat0 (VA m) c).arrAt_in 0 rfl _).trans (A_eq0 (VA m) c 0)).trans (Gen.V4_of m (outs m) c main_arg1 (by decide)).symm
  | ⟨1, _⟩ => (((dat0 (VA m) c).arrAt_in 1 rfl _).trans (A_eq0 (VA m) c 1)).trans (Gen.V4_of m (outs m) c main_arg3 (by decide)).symm
  | ⟨2, _⟩ => (((dat0 (VA m) c).arrAt_in 2 rfl _).trans (A_eq0 (VA m) c 2)).trans (Gen.V4_of m (outs m) c main_v1 (by decide)).symm
  | ⟨3, _⟩ => by
    show msgsArr m c = Function.update (Gen.V3 m c) (Proc.devRef .tc main_v3) (outs m 4 main_v3 c) (Proc.devRef .tc main_v3)
    rw [Function.update_self, outs_4]

/-- Every other buffer holds what it held at the entry. -/
theorem hrest0 (c : Dev nD) : ∀ b, b ∉ Finset.univ.image (Pipeline.arrRef spec0) → Gen.V4 m (outs m) c b = VA m c b :=
  fun b hb => Gen.V4_of m (outs m) c b fun h => hb (Finset.mem_image.mpr ⟨3, Finset.mem_univ _, (List.mem_singleton.mp h).symm⟩)

/-! ## The regions as segments -/

set_option backward.isDefEq.respectTransparency.types false in
/-- REGION 0 (the gather-and-scale call) over the thread state: entered from every unscoped buffer at the contents
    after the third host stretch, left with the messages' array at what the write-backs leave. Its arrays are split
    out of the unscoped buffers and put back at the exit contents; the generator register goes into the class
    invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (fun b => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's arrays at its exit -/

/-- Each array of region 1 holds at the exit what the contents after the region say: an input's array what it held,
    the halves' array what the write-backs leave. -/
theorem hF1 (c : Dev nD) (w : Fin cfg1.W) : (dat1 (VB m) c).arrAt w cfg1.N = Gen.V5 m (outs m) c (Pipeline.arrRef spec1 w) :=
  match w with
  | ⟨0, _⟩ => (((dat1 (VB m) c).arrAt_in 0 rfl _).trans (A_eq1 (VB m) c 0)).trans
      ((Gen.V5_of m (outs m) c main_arg2 (by decide)).trans (congrFun (V4_eq m c) _)).symm
  | ⟨1, _⟩ => (((dat1 (VB m) c).arrAt_in 1 rfl _).trans (A_eq1 (VB m) c 1)).trans
      ((Gen.V5_of m (outs m) c main_v3 (by decide)).trans (congrFun (V4_eq m c) _)).symm
  | ⟨2, _⟩ => by
    show partsArr m c = Function.update (Gen.V4 m (outs m) c) (Proc.devRef .tc main_v4) (outs m 5 main_v4 c) (Proc.devRef .tc main_v4)
    rw [Function.update_self, outs_5]

/-- Every other buffer holds what it held at the entry. -/
theorem hrest1 (c : Dev nD) : ∀ b, b ∉ Finset.univ.image (Pipeline.arrRef spec1) → Gen.V5 m (outs m) c b = VB m c b :=
  fun b hb => (Gen.V5_of m (outs m) c b fun h => hb (Finset.mem_image.mpr ⟨2, Finset.mem_univ _, (List.mem_singleton.mp h).symm⟩)).trans
    (congrFun (V4_eq m c) _)

set_option backward.isDefEq.respectTransparency.types false in
/-- REGION 1 (the scatter call) over the thread state: entered from every unscoped buffer at the contents region 0
    leaves, left with the halves' array at what the write-backs leave. Its invariant carries the scratch from point
    to point: it is entered from the class invariant and gives it back at the end. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V4 m (outs m) c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V4_eq m c]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (Gen.adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 (VB m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (VB m) c).trans h
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (fun b => Gen.V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the return -/

set_option backward.isDefEq.respectTransparency.types false in
/-- THE RUN: every weakly fair execution of @main from memory `m` with zero counters terminates, and in every final
    memory each unscoped buffer of each core holds what the fold of the items leaves there: the launch contents, then
    each host stretch applied, each region's output array at what its write-backs leave. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V6 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨Hh, HSI⟩
      unfold StableHlo.held
      imodintro
      iapply (pointsTo_read_all (Pipeline.ucRefs τ sig) (fun b => (((c : Thread nD τ)).1, b)) (Gen.V6 m (outs m) c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c)⟩) (run_all m ρ)

/-- THE RESULT: the returned array ends at what the fold of the items leaves there, every argument array at its
    launch contents. -/
theorem run_result : θ_run defs (onTc (τ := τ) (main (F := F))) ⟨m, fun _ => 0, ρ⟩ (fun r => ∀ c : Dev nD,
      r.2.mem ((c.tc : Thread nD τ).loc main_v15) = Gen.V6 m (outs m) c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v15 (by decide)),
     (h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c)⟩) (run_all m ρ)

end Cert.Kernel.Hand

end
-- ==== Proof.KI.R0.lean ====
/- Region 0 (the gather-and-scale call) of the frame: the blocks its four windows read, what the body
   leaves in the output window's buffer, the body's triple, the proof data at the region's entry contents, and
   the body obligation at every point of its grid. -/
import proofs.«413453_j67723044323421_3_alg».proof.Proof.Gen.KernelIdeal.Launch
import proofs.«413453_j67723044323421_3_alg».proof.Proof.Gen.KernelIdeal.Skeleton
import proofs.«413453_j67723044323421_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source-index tile: its staging buffer holds the tile's block at every point, for any proof data whose array
    is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The edge-weight tile, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole table: fetched at the first point only, and its block index never moves, so every later point finds
    the same block the first fetch put there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rE0 : Rect S1024 := Rect.unit (s := S1024) ![0] S1024.size inb_S1024_S1024_0
abbrev rX0 : Rect S10112x128 := Rect.unit (s := S10112x128) ![0, 0] S10112x128.size inb_S10112x128_S10112x128_0_0
abbrev rO0 : Rect S1024x128 := Rect.unit (s := S1024x128) ![0, 0] S1024x128.size inb_S1024x128_S1024x128_0_0

/-! ## What the body leaves in the output window's buffer -/

/-- The message tile's staging buffer after the body, from the three input blocks: one store of the whole tile,
    whose payload is the gathered rows scaled by the edge weights. -/
def out0_3 (x0 : Vec F S1024 .i32) (x1 : Vec F S1024 .f32) (x2 : Vec F S10112x128 .bf16) : Vec F S1024x128 .bf16 :=
  View.canon [⟨rO0, k0_pay1 (View.ld x0 rE0) (View.ld x1 rE0) (View.ld x2 rX0)⟩]

/-- The one store is of the whole tile, so it covers the buffer. -/
theorem cover0_3 (p0 : Vec F S1024x128 .bf16) (y : S1024x128.Idx) :
    ∃ pc ∈ ([⟨rO0, p0⟩] : List (View.Piece (Elt F) S1024x128 .bf16)), y ∈ pc.1.set :=
  View.cover_of_tiled [⟨rO0, p0⟩] S1024x128.size (by rfl) y

/-! ## The body's triple -/

set_option maxHeartbeats 1000000 in
/-- The kernel body on whole staging memrefs, the three inputs' at contents `x0`, `x1`, `x2` and the output's at
    anything, runs to the continuation holding the inputs' as they were and the output's at `out0_3` of them: the
    body reads each input whole, reads the output (the value is dropped) and stores the whole tile once. -/
theorem sound_kernel0 (c : Dev nD) (E : Set ℕ) (i : grid0.Coords)
    (arg0 : Memref sig .tc .vmem S1024 .i32) (harg0 : arg0.IsWhole) (arg1 : Memref sig .tc .vmem S1024 .f32) (harg1 : arg1.IsWhole)
    (arg2 : Memref sig .tc .vmem S10112x128 .bf16) (harg2 : arg2.IsWhole) (arg3 : Memref sig .tc .vmem S1024x128 .bf16) (harg3 : arg3.IsWhole)
    (x0 : Vec F S1024 .i32) (x1 : Vec F S1024 .f32) (x2 : Vec F S10112x128 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__gather_scale_kernel i arg0 harg0 arg1 harg1 arg2 harg2 arg3 harg3) K := by
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t` each
    input's buffer at its block and the output's at `out0_3` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0
end Cert.KernelIdeal.Hand
end
-- ==== Proof.KI.R1Base.lean ====
import proofs.«413453_j67723044323421_3_alg».proof.Proof.Gen.KernelIdeal.Launch
import proofs.«413453_j67723044323421_3_alg».proof.Proof.Gen.KernelIdeal.Skeleton
import proofs.«413453_j67723044323421_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the scatter call), what its three runs share

The scatter call walks a grid of 2 × 625 points. Each half `p` accumulates, in a scratch array carried from point to
point, the sum over its 625 tiles of one-hot(dst tile) · msgs tile; the scratch is zeroed at the first point of the
half (`k = 0`) and copied to the half's output block at its last point (`k = 624`). Everything here is stated at a
PARAMETER `V`: the contents of the core's buffers when the region is entered. -/

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the dst tile): its current staging buffer holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the msgs tile): likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions -/

/-- The body's first condition, from the grid coordinates: the inner coordinate `k` is 0 (the scratch is zeroed). -/
abbrev cond1_0 (i : grid1.Coords) : Prop := (Scalar.cmpi .ne (Scalar.extui (Scalar.cmpi .eq (BitVec.ofNat 32 (i 1).val) 0#32)) 0#32) = 1#1
/-- It holds at the linear positions ≡ 0 (mod 625): the first point of each half. -/
theorem hcond1_0 : ∀ t : Fin cfg1.N, cond1_0 (grid1.coords t) ↔ t.val % 625 = 0 :=
  (by decide +kernel : ∀ t : Fin grid1.N, cond1_0 (grid1.coords t) ↔ t.val % 625 = 0)

/-- The body's second condition: `k = 624` (the scratch is copied to the output block). -/
abbrev cond1_1 (i : grid1.Coords) : Prop := k1_cond2 i = 1#1
/-- It holds at the linear positions ≡ 624 (mod 625): the last point of each half. -/
theorem hcond1_1 : ∀ t : Fin cfg1.N, cond1_1 (grid1.coords t) ↔ t.val % 625 = 624 :=
  (by decide +kernel : ∀ t : Fin grid1.N, cond1_1 (grid1.coords t) ↔ t.val % 625 = 624)

/-! ## Where the windows are idle -/

/-- The two inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- At a first point of a half the output window is idle (nothing is stored into it) -/
theorem idleAt1_2_A : ∀ t : Fin cfg1.N, cond1_0 (grid1.coords t) → ¬cond1_1 (grid1.coords t) → cfg1.idle 2 (grid1.coords t) = true := by decide +kernel
/-- and its block is not written back there. -/
theorem noFlush1_2_A : ∀ t : Fin cfg1.N, cond1_0 (grid1.coords t) → ¬cond1_1 (grid1.coords t) → (cfg1.win 2).flush t = false := by decide +kernel
/-- At a middle point of a half the output window is idle -/
theorem idleAt1_2_B : ∀ t : Fin cfg1.N, ¬cond1_0 (grid1.coords t) → ¬cond1_1 (grid1.coords t) → cfg1.idle 2 (grid1.coords t) = true := by decide +kernel
/-- and its block is not written back there. -/
theorem noFlush1_2_B : ∀ t : Fin cfg1.N, ¬cond1_0 (grid1.coords t) → ¬cond1_1 (grid1.coords t) → (cfg1.win 2).flush t = false := by decide +kernel
/-- At the last point of a half the output window is live: the body stores the whole block. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated (any whole buffer of the shape reads
    the same back). -/
abbrev VO1_2 : View sig .tc .vmem S1x10112x128 .f32 := (Memref.whole cc1_stg2_0 : Memref sig .tc .vmem S1x10112x128 .f32).view
/-- Each window's current staging memref at point `t`, and its wholeness. -/
abbrev ms1_0 (t : Fin cfg1.N) : Memref sig .tc .vmem S512 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x10112x128 .f32 := win1_2.stage (cfg1.slots t 2)
abbrev hs1_2 (t : Fin cfg1.N) : (ms1_2 t).IsWhole := hstage1_2 ((cfg1.slots t 2).cast nbuf1_2)
/-- The scratch accumulator: a whole scoped buffer of the call's own, passed beside the windows. -/
abbrev scM1_0 : Memref sig .tc .vmem S10112x128 .f32 := Memref.whole cc1_scratch0
/-- The same as a view: what the scratch holds is stated through it. -/
abbrev VS1_0 : View sig .tc .vmem S10112x128 .f32 := scM1_0.view

/-! ## The region's invariant, opened -/

/-- The core's scoped buffers that are no staging buffer of this call, with the scratch's place held by `S`: the seven
    staging buffers of the gather call, each whole at some contents, then `S`. -/
abbrev scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- What the launch hands the region: the seven foreign staging buffers at anything, the scratch owned at some
    contents, the generator register at some state. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.R1RunA.lean ====
import proofs.«413453_j67723044323421_3_alg».proof.Proof.KI.R1Base

-- membership of an index in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body at a FIRST point of a half (`k = 0`, not `k = 624`), on whole memrefs: the two inputs at their blocks, the
    output's buffer (idle here) at any contents `xi2`, the scratch at anything. It runs to a continuation that holds the
    inputs and the output's buffer as they were and the scratch with the pieces `LS0` written: the zero fill, then the
    accumulation of one-hot(dst) · msgs onto it. No piece is stored into the output. -/
noncomputable def kernelRun1_A (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : cond1_0 i) (hc1 : ¬cond1_1 i)
    (x0 : Vec F S512 .i32) (x1 : Vec F S512x128 .bf16) :
    Σ' (L2 : List (View.Piece (Elt F) S1x10112x128 .f32)), { LS0 : List (View.Piece (Elt F) S10112x128 .f32) //
      ∀ (xi2 : Vec F S1x10112x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunB.lean ====
import proofs.«413453_j67723044323421_3_alg».proof.Proof.KI.R1RunA

-- membership of an index in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body at a MIDDLE point of a half (neither `k = 0` nor `k = 624`): the inputs at their blocks, the output's buffer
    (idle here) at any contents `xi2`, the scratch at what the point before left (`xs0`). It runs to a continuation that
    holds the inputs and the output's buffer as they were and the scratch with the piece `LS0` written: `xs0` plus
    one-hot(dst) · msgs. No piece is stored into the output. -/
noncomputable def kernelRun1_B (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : ¬cond1_1 i)
    (x0 : Vec F S512 .i32) (x1 : Vec F S512x128 .bf16) (xs0 : Vec F S10112x128 .f32) :
    Σ' (L2 : List (View.Piece (Elt F) S1x10112x128 .f32)), { LS0 : List (View.Piece (Elt F) S10112x128 .f32) //
      ∀ (xi2 : Vec F S1x10112x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunC.lean ====
import proofs.«413453_j67723044323421_3_alg».proof.Proof.KI.R1RunB

-- membership of an index in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body at the LAST point of a half (`k = 624`): the inputs at their blocks, the output's buffer at anything, the
    scratch at what the point before left (`xs0`). It runs to a continuation that holds the inputs as they were, the
    scratch with the piece `LS0` written (`xs0` plus one-hot(dst) · msgs) and the output's buffer with the piece `L2`
    written: that sum, reshaped to the output block. -/
noncomputable def kernelRun1_C (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : cond1_1 i)
    (x0 : Vec F S512 .i32) (x1 : Vec F S512x128 .bf16) (xs0 : Vec F S10112x128 .f32) :
    Σ' (L2 : List (View.Piece (Elt F) S1x10112x128 .f32)), { LS0 : List (View.Piece (Elt F) S10112x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R1.lean ====
import proofs.«413453_j67723044323421_3_alg».proof.Proof.KI.R1RunC

-- membership of an index in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the scatter call): what the body leaves point by point, the proof data, the body obligation

Within a half `p` of the grid the scratch after point `k` is the sum over tiles `0..k` of one-hot(dst tile) · msgs tile,
started from zero at `k = 0`; the half's output block is that sum at `k = 624`. Here this is stated through the pieces
each case's run stores, read back over any buffer. -/

section Region1
variable (V : (c : Dev nD) → (b : Ref sig .tc) → Buf (Elt F) ((c : Thread nD τ).loc b))

/-! ## What each case leaves in the output's buffer and in the scratch -/

/-- Case A stores nothing into the output window (idle at its points, and not written back there): no pieces — a
    placeholder, junk read back, that nothing consults. -/
def out1_A_2 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : cond1_0 i) (hc1 : ¬cond1_1 i)
    (x0 : Vec F S512 .i32) (x1 : Vec F S512x128 .bf16) : Vec F S1x10112x128 .f32 :=
  VO1_2.read (Elt F) (VO1_2.writes (Elt F) VO1_2.junk (kernelRun1_A c i arg2 harg2 arg3 harg3 arg4 harg4 arg5 harg5 hc0 hc1 x0 x1).1)

/-- Case A's pieces for the scratch cover it: each is the whole array. -/
theorem scover1_A_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : cond1_0 i) (hc1 : ¬cond1_1 i)
    (x0 : Vec F S512 .i32) (x1 : Vec F S512x128 .bf16) (y : S10112x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S10112x128.size (by sl_kernel_rfl) y

/-- What case A leaves in the scratch: its pieces read back over junk. -/
def sout1_A_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : cond1_0 i) (hc1 : ¬cond1_1 i)
    (x0 : Vec F S512 .i32) (x1 : Vec F S512x128 .bf16) : Vec F S10112x128 .f32 :=
  VS1_0.read (Elt F) (VS1_0.writes (Elt F) VS1_0.junk (kernelRun1_A c i arg2 harg2 arg3 harg3 arg4 harg4 arg5 harg5 hc0 hc1 x0 x1).2.1)

/-- Case B stores nothing into the output window (idle at its points, and not written back there): no pieces — a
    placeholder, junk read back, that nothing consults. -/
def out1_B_2 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : ¬cond1_1 i)
    (x0 : Vec F S512 .i32) (x1 : Vec F S512x128 .bf16) (xs0 : Vec F S10112x128 .f32) : Vec F S1x10112x128 .f32 :=
  VO1_2.read (Elt F) (VO1_2.writes (Elt F) VO1_2.junk (kernelRun1_B c i arg2 harg2 arg3 harg3 arg4 harg4 arg5 harg5 hc0 hc1 x0 x1 xs0).1)

/-- Case B's pieces for the scratch cover it: each is the whole array. -/
theorem scover1_B_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : ¬cond1_1 i)
    (x0 : Vec F S512 .i32) (x1 : Vec F S512x128 .bf16) (xs0 : Vec F S10112x128 .f32) (y : S10112x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S10112x128.size (by sl_kernel_rfl) y

/-- What case B leaves in the scratch: its pieces read back over junk. -/
def sout1_B_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : ¬cond1_1 i)
    (x0 : Vec F S512 .i32) (x1 : Vec F S512x128 .bf16) (xs0 : Vec F S10112x128 .f32) : Vec F S10112x128 .f32 :=
  VS1_0.read (Elt F) (VS1_0.writes (Elt F) VS1_0.junk (kernelRun1_B c i arg2 harg2 arg3 harg3 arg4 harg4 arg5 harg5 hc0 hc1 x0 x1 xs0).2.1)

/-- Case C's one piece for the output window is the whole block, so its pieces cover it. -/
theorem cover1_C_2 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : cond1_1 i)
    (x0 : Vec F S512 .i32) (x1 : Vec F S512x128 .bf16) (xs0 : Vec F S10112x128 .f32) (y : S1x10112x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x10112x128.size (by sl_kernel_rfl) y

/-- What case C leaves in the output's staging buffer: its piece read back over junk. -/
def out1_C_2 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : cond1_1 i)
    (x0 : Vec F S512 .i32) (x1 : Vec F S512x128 .bf16) (xs0 : Vec F S10112x128 .f32) : Vec F S1x10112x128 .f32 :=
  VO1_2.read (Elt F) (VO1_2.writes (Elt F) VO1_2.junk (kernelRun1_C c i arg2 harg2 arg3 harg3 arg4 harg4 arg5 harg5 hc0 hc1 x0 x1 xs0).1)

/-- Case C's pieces for the scratch cover it: each is the whole array. -/
theorem scover1_C_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : cond1_1 i)
    (x0 : Vec F S512 .i32) (x1 : Vec F S512x128 .bf16) (xs0 : Vec F S10112x128 .f32) (y : S10112x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S10112x128.size (by sl_kernel_rfl) y

/-- What case C leaves in the scratch: its pieces read back over junk. -/
def sout1_C_0 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬cond1_0 i) (hc1 : cond1_1 i)
    (x0 : Vec F S512 .i32) (x1 : Vec F S512x128 .bf16) (xs0 : Vec F S10112x128 .f32) : Vec F S10112x128 .f32 :=
  VS1_0.read (Elt F) (VS1_0.writes (Elt F) VS1_0.junk (kernelRun1_C c i arg2 harg2 arg3 harg3 arg4 harg4 arg5 harg5 hc0 hc1 x0 x1 xs0).2.1)

/-! ## What the output's buffer and the scratch hold after each point -/

/-- THE ACCUMULATION. What the output window's staging buffer and the scratch hold after the body at linear position
    `n`: the case `n mod 625` selects, run at the point's memrefs and input blocks, the scratch it reads at what
    position `n - 1` left. The two conditions never hold together. -/
def outsAt1 (c : Dev nD) : (n : ℕ) → n < cfg1.N → Vec F S1x10112x128 .f32 × Vec F S10112x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 625 = 0 then
      if h1 : (n + 1) % 625 = 624 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 625 = 624 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first point of a half. -/
theorem outsAt1_A (c : Dev nD) (t : Fin cfg1.N) (h0 : t.val % 625 = 0) (h1 : ¬t.val % 625 = 624) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point of a half: over what the point before left in the scratch. -/
theorem outsAt1_B (c : Dev nD) (t : Fin cfg1.N) (h0 : ¬t.val % 625 = 0) (h1 : ¬t.val % 625 = 624) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point of a half: over what the point before left in the scratch. -/
theorem outsAt1_C (c : Dev nD) (t : Fin cfg1.N) (h0 : ¬t.val % 625 = 0) (h1 : t.val % 625 = 624) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The gather call's seven staging buffers, each whole at some contents: scoped buffers this region never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scoped rest with the scratch's place held by `S`, the seven foreign buffers gathered. -/
theorem scoped1_eq (c : Dev nD) (S : sProp 𝕄) : scoped1 c S = iprop(others1 c ∗ S) := by
  unfold others1
  have h₁ : scoped1 c S ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ S) := by
    iintro ⟨HA0, HA1, HA2, HA3, HA4, HA5, HA6, HS⟩
    isplitr [HS]
    swap; · iexact HS
    isplitl [HA0]; · iexact HA0
    isplitl [HA1]; · iexact HA1
    isplitl [HA2]; · iexact HA2
    isplitl [HA3]; · iexact HA3
    isplitl [HA4]; · iexact HA4
    isplitl [HA5]; · iexact HA5
    iexact HA6
  have h₂ : iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ S) ⊢ scoped1 c S := by
    iintro ⟨⟨HA0, HA1, HA2, HA3, HA4, HA5, HA6⟩, HS⟩
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    iexact HS
  exact BI.equiv_iff.mp ⟨h₁, h₂⟩

/-- What the launch hands the region: the foreign buffers, the scratch owned at some contents, the generator register. -/
theorem PhiA1_eq' (c : Dev nD) :
    (Pipeline.ΦA spec1 c : sProp 𝕄)
      = iprop(iprop(others1 c ∗ (∃ d, owns (c : Thread nD τ) scM1_0 fullShare d)) ∗ (∃ r, prngReg c r)) := by
  rw [PhiA1_eq, scoped1_eq]

/-- The region invariant before position `n`: before the first point what the launch hands over (the scratch at
    anything); afterwards the foreign buffers unchanged, the scratch owned at what the point before left in it
    (`outsAt1`'s second component), the generator register at some state. -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(others1 c ∗ owns (c : Thread nD τ) scM1_0 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the scatter call on core `c`: the arrays as the region finds them (`V`); after the body at point
    `t` each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; `t mod 625` says which case the point is in, and that
    case's run applies. The invariant hands the body the scratch at what the point before left — at anything at the very
    first point, and also at the first point of the second half, where the body overwrites it before reading it — and takes
    it back at this point's contents, its pieces covering it. The foreign buffers, the generator register and what the
    core owes pass through unread; where the output window is idle its buffer is handed back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 1250 := lt_of_lt_of_eq t.isLt (show cfg1.N = 1250 from N_1)
  by_cases h0 : t.val % 625 = 0
  · by_cases h1 : t.val % 625 = 624
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq']
        iintro ⟨⟨⟨HA, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HA HS0 Hg]
        · isplitl [HA HS0]
          · isplitl [HA]; · iexact HA
            unfold owns; iexists _; isplitr
            swap; · iexact HS0
            ipureintro; exact View.read_writes_of_cover _ _ _ _ _ (scover1_A_0 _ _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HA, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HA HS0 Hg]
        · isplitl [HA HS0]
          · isplitl [HA]; · iexact HA
            unfold owns; iexists _; isplitr
            swap; · iexact HS0
            ipureintro; exact View.read_writes_of_cover _ _ _ _ _ (scover1_A_0 _ _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 625 = 624
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HA, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HA HS0 Hg]
      · isplitl [HA HS0]
        · isplitl [HA]; · iexact HA
          unfold owns; iexists _; isplitr
          swap; · iexact HS0
          ipureintro; exact View.read_writes_of_cover _ _ _ _ _ (scover1_C_0 _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HA, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HA HS0 Hg]
      · isplitl [HA HS0]
        · isplitl [HA]; · iexact HA
          unfold owns; iexists _; isplitr
          swap; · iexact HS0
          ipureintro; exact View.read_writes_of_cover _ _ _ _ _ (scover1_B_0 _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the scratch's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq']
  iintro ⟨⟨HA, HS0⟩, Hg⟩
  isplitl [HA HS0]
  · isplitl [HA]; · iexact HA
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 1250 := N_1; omega)

end Region1

end Cert.KernelIdeal.Hand

end
-- ==== Proof.KI.Run.lean ====
/- The run of @main: what every unscoped buffer holds between the items (the launch contents, each host stretch applied,
   each region's output array at what its write-backs leave), the two kernel regions as segments over that thread state,
   the launch, and what the final memory holds: every unscoped buffer at the last contents, hence each argument array
   as launched and the returned array at the fold's value. -/
import proofs.«413453_j67723044323421_3_alg».proof.Proof.Gen.KernelIdeal.Regions
import proofs.«413453_j67723044323421_3_alg».proof.Proof.KI.R0
import proofs.«413453_j67723044323421_3_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: the buffers' contents between the items, the two regions' records, the launch and the return -/

variable (m : (ℓ : Loc nD τ sig) → Buf (Elt F) ℓ) (ρ : Dev nD → PrngReg)

/-- What region 0 is entered from: the launch contents after the three host stretches. -/
abbrev VA (c : Dev nD) (b : Ref sig .tc) : Buf (Elt F) ((c : Thread nD τ).loc b) := Gen.V3 m c b

/-- What region 0 leaves in its output array: the messages. -/
def msgsArr (c : Dev nD) : Buf (Elt F) ((c : Thread nD τ).loc main_v3) := (dat0 (VA m) c).arrAt 3 cfg0.N

/-- Every unscoped buffer after region 0: the messages' array at what the region leaves, every other as entered. -/
abbrev WB (c : Dev nD) : Valuation τ sig (Elt F) := Function.update (Gen.V3 m c) main_v3 (msgsArr m c)

/-- What region 1 is entered from. -/
abbrev VB (c : Dev nD) (b : Ref sig .tc) : Buf (Elt F) ((c : Thread nD τ).loc b) := WB m c b

/-- What region 1 leaves in its output array: the two halves' sums. -/
def partsArr (c : Dev nD) : Buf (Elt F) ((c : Thread nD τ).loc main_v4) := (dat1 (VB m) c).arrAt 2 cfg1.N

/-- Every unscoped buffer after region 1. -/
abbrev WC (c : Dev nD) : Valuation τ sig (Elt F) := Function.update (WB m c) main_v4 (partsArr m c)

/-- What the regions leave, as the contents of every reference after each item: read at the messages' array after
    region 0 and at the halves' array after region 1. -/
def outs : Gen.Outs (F := F) := fun J r c =>
  if J = 4 then WB m c r else if J = 5 then WC m c r else Gen.V3 m c r

theorem outs_4 (c : Dev nD) : outs m 4 main_v3 c = msgsArr m c := by
  unfold outs; rw [if_pos rfl]; exact Function.update_self ..

theorem outs_5 (c : Dev nD) : outs m 5 main_v4 c = partsArr m c := by
  unfold outs; rw [if_neg (by decide), if_pos rfl]; exact Function.update_self ..

/-- The contents after region 0, in the form the host segments are stated over. -/
theorem V4_eq (c : Dev nD) : Gen.V4 m (outs m) c = WB m c := by
  show Function.update (Gen.V3 m c) _ (outs m 4 main_v3 c) = Function.update (Gen.V3 m c) _ (msgsArr m c)
  rw [outs_4]

/-- The contents after region 1, likewise. -/
theorem V5_eq (c : Dev nD) : Gen.V5 m (outs m) c = WC m c := by
  show Function.update (Gen.V4 m (outs m) c) _ (outs m 5 main_v4 c) = Function.update (WB m c) _ (partsArr m c)
  rw [outs_5, V4_eq]

/-- Read at a reference: what region 1 is entered from is the contents after region 0. -/
theorem V4_apply (c : Dev nD) (b : Ref sig .tc) : Gen.V4 m (outs m) c b = VB m c b := congrFun (V4_eq m c) _

/-- After region 0 the messages' array holds what the region leaves. -/
theorem V4_main_v3 (c : Dev nD) : Gen.V4 m (outs m) c main_v3 = msgsArr m c := by
  show Function.update (Gen.V3 m c) (Proc.devRef .tc main_v3) (outs m 4 main_v3 c) (Proc.devRef .tc main_v3) = msgsArr m c
  rw [Function.update_self, outs_4]

/-- After region 1 the halves' array holds what the region leaves. -/
theorem V5_main_v4 (c : Dev nD) : Gen.V5 m (outs m) c main_v4 = partsArr m c := by
  show Function.update (Gen.V4 m (outs m) c) (Proc.devRef .tc main_v4) (outs m 5 main_v4 c) (Proc.devRef .tc main_v4) = partsArr m c
  rw [Function.update_self, outs_5]

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes,
    which is nothing. -/
abbrev R (c : Dev nD) : sProp 𝕄 := iprop((∃ r, prngReg c r) ∗ ∃ W, owes (c : Thread nD τ) (0 : CellTallies nD τ sig Unit) W)
/-- The same beside every item. -/
abbrev E : Fin 3 → Dev nD → sProp 𝕄 := fun _ => R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0's arrays at its exit -/

/-- Each array of region 0 holds at the exit what the contents after the region say: an input's array what it held,
    the messages' array what the write-backs leave. -/
theorem hF0 (c : Dev nD) (w : Fin cfg0.W) : (dat0 (VA m) c).arrAt w cfg0.N = Gen.V4 m (outs m) c (Pipeline.arrRef spec0 w) :=
  match w with
  | ⟨0, _⟩ => (((dat0 (VA m) c).arrAt_in 0 rfl _).trans (A_eq0 (VA m) c 0)).trans (Gen.V4_of m (outs m) c main_arg1 (by decide)).symm
  | ⟨1, _⟩ => (((dat0 (VA m) c).arrAt_in 1 rfl _).trans (A_eq0 (VA m) c 1)).trans (Gen.V4_of m (outs m) c main_arg3 (by decide)).symm
  | ⟨2, _⟩ => (((dat0 (VA m) c).arrAt_in 2 rfl _).trans (A_eq0 (VA m) c 2)).trans (Gen.V4_of m (outs m) c main_v1 (by decide)).symm
  | ⟨3, _⟩ => by
    show msgsArr m c = Function.update (Gen.V3 m c) (Proc.devRef .tc main_v3) (outs m 4 main_v3 c) (Proc.devRef .tc main_v3)
    rw [Function.update_self, outs_4]

/-- Every other buffer holds what it held at the entry. -/
theorem hrest0 (c : Dev nD) : ∀ b, b ∉ Finset.univ.image (Pipeline.arrRef spec0) → Gen.V4 m (outs m) c b = VA m c b :=
  fun b hb => Gen.V4_of m (outs m) c b fun h => hb (Finset.mem_image.mpr ⟨3, Finset.mem_univ _, (List.mem_singleton.mp h).symm⟩)

/-! ## The regions as segments -/

set_option backward.isDefEq.respectTransparency.types false in
/-- REGION 0 (the gather-and-scale call) over the thread state: entered from every unscoped buffer at the contents
    after the third host stretch, left with the messages' array at what the write-backs leave. Its arrays are split
    out of the unscoped buffers and put back at the exit contents; the generator register goes into the class
    invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (fun b => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's arrays at its exit -/

/-- Each array of region 1 holds at the exit what the contents after the region say: an input's array what it held,
    the halves' array what the write-backs leave. -/
theorem hF1 (c : Dev nD) (w : Fin cfg1.W) : (dat1 (VB m) c).arrAt w cfg1.N = Gen.V5 m (outs m) c (Pipeline.arrRef spec1 w) :=
  match w with
  | ⟨0, _⟩ => (((dat1 (VB m) c).arrAt_in 0 rfl _).trans (A_eq1 (VB m) c 0)).trans
      ((Gen.V5_of m (outs m) c main_arg2 (by decide)).trans (congrFun (V4_eq m c) _)).symm
  | ⟨1, _⟩ => (((dat1 (VB m) c).arrAt_in 1 rfl _).trans (A_eq1 (VB m) c 1)).trans
      ((Gen.V5_of m (outs m) c main_v3 (by decide)).trans (congrFun (V4_eq m c) _)).symm
  | ⟨2, _⟩ => by
    show partsArr m c = Function.update (Gen.V4 m (outs m) c) (Proc.devRef .tc main_v4) (outs m 5 main_v4 c) (Proc.devRef .tc main_v4)
    rw [Function.update_self, outs_5]

/-- Every other buffer holds what it held at the entry. -/
theorem hrest1 (c : Dev nD) : ∀ b, b ∉ Finset.univ.image (Pipeline.arrRef spec1) → Gen.V5 m (outs m) c b = VB m c b :=
  fun b hb => (Gen.V5_of m (outs m) c b fun h => hb (Finset.mem_image.mpr ⟨2, Finset.mem_univ _, (List.mem_singleton.mp h).symm⟩)).trans
    (congrFun (V4_eq m c) _)

set_option backward.isDefEq.respectTransparency.types false in
/-- REGION 1 (the scatter call) over the thread state: entered from every unscoped buffer at the contents region 0
    leaves, left with the halves' array at what the write-backs leave. Its invariant carries the scratch from point
    to point: it is entered from the class invariant and gives it back at the end. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V4 m (outs m) c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V4_eq m c]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (Gen.adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 (VB m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (VB m) c).trans h
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (fun b => Gen.V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the return -/

set_option backward.isDefEq.respectTransparency.types false in
/-- THE RUN: every weakly fair execution of @main from memory `m` with zero counters terminates, and in every final
    memory each unscoped buffer of each core holds what the fold of the items leaves there: the launch contents, then
    each host stretch applied, each region's output array at what its write-backs leave. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V6 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨Hh, HSI⟩
      unfold StableHlo.held
      imodintro
      iapply (pointsTo_read_all (Pipeline.ucRefs τ sig) (fun b => (((c : Thread nD τ)).1, b)) (Gen.V6 m (outs m) c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c)⟩) (run_all m ρ)

/-- THE RESULT: the returned array ends at what the fold of the items leaves there, every argument array at its
    launch contents. -/
theorem run_result : θ_run defs (onTc (τ := τ) (main (F := F))) ⟨m, fun _ => 0, ρ⟩ (fun r => ∀ c : Dev nD,
      r.2.mem ((c.tc : Thread nD τ).loc main_v15) = Gen.V6 m (outs m) c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v15 (by decide)),
     (h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c)⟩) (run_all m ρ)

end Cert.KernelIdeal.Hand

end
-- ==== Proof.KI.Tail.lean ====
/-
  The host stretches of the graph convolution's program read at an index, at the ideal instance.

  Between the program's items the unscoped buffers of a core are named by valuations: the launch contents, then what
  each host stretch computes from them, then what a region may change (left abstract here, as unknowns). This module
  says what those valuations hold where the two regions and the final host stretch read them:
  * the padded table: the node features with 112 zero rows appended (the format change is the identity on the
    extended reals), so row n is the features' row n below 10000 and zero from there on;
  * the index and weight arrays: as launched, no item before their reader writes them;
  * the messages and the two partial sums: what the region before left;
  * the result: at (n, j) the sum over the 128 features k of (first partial sum + second partial sum)(n, k) times
    the weight at (k, j), plus the bias at j — the two halves sliced and reshaped, added, multiplied by the weight,
    the bias broadcast and added, the first 10000 rows kept.
-/
import proofs.«413453_j67723044323421_3_alg».proof.Proof.Gen.KernelIdeal.Regions
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.StableHlo.Run

noncomputable section

namespace Cert.KernelIdeal.HandValue

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ) (outs : Gen.Outs (F := Ideal))

/-! ## What no earlier item writes, and what a region left -/

/-- The source indices reach region 0 as launched. -/
theorem V3_src (c : Dev nD) : Gen.V3 m c main_arg1 = m ((c : Thread nD τ).loc main_arg1) :=
  (Gen.V3_of m c main_arg1 (by decide)).trans <| (Gen.V2_of m c main_arg1 (by decide)).trans <| (Gen.V1_of m c main_arg1 (by decide)).trans rfl

/-- The edge weights reach region 0 as launched. -/
theorem V3_w (c : Dev nD) : Gen.V3 m c main_arg3 = m ((c : Thread nD τ).loc main_arg3) :=
  (Gen.V3_of m c main_arg3 (by decide)).trans <| (Gen.V2_of m c main_arg3 (by decide)).trans <| (Gen.V1_of m c main_arg3 (by decide)).trans rfl

/-- The destination indices reach region 1 as launched. -/
theorem V4_dst (c : Dev nD) : Gen.V4 m outs c main_arg2 = m ((c : Thread nD τ).loc main_arg2) :=
  (Gen.V4_of m outs c main_arg2 (by decide)).trans <| (Gen.V3_of m c main_arg2 (by decide)).trans <| (Gen.V2_of m c main_arg2 (by decide)).trans <| (Gen.V1_of m c main_arg2 (by decide)).trans rfl

/-- Region 1 reads the messages as region 0 left them. -/
theorem V4_msgs (c : Dev nD) : Gen.V4 m outs c main_v3 = outs 4 main_v3 c := by
  show Function.update (Gen.V3 m c) (Proc.devRef .tc main_v3) (outs 4 main_v3 c) (Proc.devRef .tc main_v3) = _
  exact Function.update_self ..

/-- The host tail reads the two partial sums as region 1 left them. -/
theorem V5_parts (c : Dev nD) : Gen.V5 m outs c main_v4 = outs 5 main_v4 c := by
  show Function.update (Gen.V4 m outs c) (Proc.devRef .tc main_v4) (outs 5 main_v4 c) (Proc.devRef .tc main_v4) = _
  exact Function.update_self ..

/-! ## The padded table -/

/-- The padded table as one term: the conversion of the row padding of the node features with the converted integer zero. -/
theorem V3_table_eqT (c : Dev nD) :
    (Gen.V3 m c main_v1 : S10112x128.Idx → EReal)
      = truncf .bf16 (pad S10112x128 ![0, 0] ![112, 0] ![0, 0] (m ((c : Thread nD τ).loc main_arg0) : S10000x128.Idx → EReal)
          (sitofp (F := Ideal) .f32 (constantI S_ 32 0#32)) Gen.pads_S10000x128_S10112x128_01120_000 Gen.h_S_) Gen.bitsLt_bf16_f32 := by
  show StableHlo.after Gen.hostOps0_2 (StableHlo.after Gen.hostOps0_1 (StableHlo.after Gen.hostOps0 (Gen.V0 m c))) (Proc.devRef .tc main_v1) = _
  after_results
  rfl

/-- Inside the first 10000 rows the row padding reads the operand. -/
theorem pad_row_insideT (x : S10000x128.Idx → EReal) (v : S_.Idx → EReal) (n : Fin 10112) (k : Fin 128) (h : n.val < 10000) :
    pad S10112x128 ![0, 0] ![112, 0] ![0, 0] x v Gen.pads_S10000x128_S10112x128_01120_000 Gen.h_S_ (ix2 n k) = x (ix2 ⟨n.val, h⟩ k) :=
  pad_apply_of_inside _ _ _ x v Gen.pads_S10000x128_S10112x128_01120_000 Gen.h_S_ (ix2 n k) (ix2 ⟨n.val, h⟩ k) (fun a => by
    match a with
    | ⟨0, _⟩ => show n.val = 0 + n.val * (0 + 1); omega
    | ⟨1, _⟩ => show k.val = 0 + k.val * (0 + 1); omega)

/-- On the 112 appended rows the row padding reads the padding value. -/
theorem pad_row_outsideT (x : S10000x128.Idx → EReal) (v : S_.Idx → EReal) (n : Fin 10112) (k : Fin 128) (h : ¬ n.val < 10000) :
    pad S10112x128 ![0, 0] ![112, 0] ![0, 0] x v Gen.pads_S10000x128_S10112x128_01120_000 Gen.h_S_ (ix2 n k) = v (Shape.Idx.first Gen.h_S_) :=
  pad_apply_of_not_inside _ _ _ x v Gen.pads_S10000x128_S10112x128_01120_000 Gen.h_S_ (ix2 n k) ⟨0, by decide⟩ (by
    show ¬(0 ≤ n.val ∧ (n.val - 0) % (0 + 1) = 0 ∧ (n.val - 0) / (0 + 1) < 10000)
    omega)

/-- The padded table at row n: the node features' row n below 10000, zero on the appended rows. -/
theorem V3_table_apply (c : Dev nD) (n : Fin 10112) (k : Fin 128) :
    (Gen.V3 m c main_v1 : S10112x128.Idx → EReal) (ix2 n k)
      = if h : n.val < 10000 then (m ((c : Thread nD τ).loc main_arg0) : S10000x128.Idx → EReal) (ix2 ⟨n.val, h⟩ k) else (0 : EReal) := by
  refine (congrFun (V3_table_eqT m c) (ix2 n k)).trans ?_
  rw [truncf_apply]
  by_cases h : n.val < 10000
  · rw [dif_pos h]
    exact pad_row_insideT _ _ n k h
  · rw [dif_neg h]
    refine (pad_row_outsideT _ _ n k h).trans ?_
    rw [sitofp_apply]
    show (((0#32 : BitVec 32).toInt : ℝ) : EReal) = 0
    rw [BitVec.toInt_zero, Int.cast_zero, EReal.coe_zero]

/-- The same, with the table and the node features as variables of their literal types, each with its equation. -/
theorem V3_table_apply_litT (c : Dev nD) (n : Fin 10112) (k : Fin 128)
    (T : S10112x128.Idx → EReal) (hT : T = Gen.V3 m c main_v1)
    (X : S10000x128.Idx → EReal) (hX : X = m ((c : Thread nD τ).loc main_arg0)) :
    T (ix2 n k) = if h : n.val < 10000 then X (ix2 ⟨n.val, h⟩ k) else 0 := by
  subst hT hX
  exact V3_table_apply m c n k

/-! ## The host tail -/

/-- The host tail as a function of the two partial sums P, the weight W and the bias b: the two halves of P
    added, multiplied by W along the feature axis, the bias added to every row, the first 10000 rows kept. -/
def tailT (P : FVec Ideal S2x10112x128 .f32) (W : FVec Ideal S128x128 .f32) (b : FVec Ideal S128 .f32) : FVec Ideal S10000x128 .f32 :=
  extractStridedSlice S10000x128 ![0, 0]
    (addf
      (Host.dotGeneral (F := Ideal) dot_S10112x128_S128x128_S10112x128_1_0_0_1_n_n none
        (truncf .bf16
          (addf
            (shapeCast S10112x128 (extractStridedSlice S1x10112x128 ![0, 0, 0] P Gen.slices_S2x10112x128_S1x10112x128_0_0_0) Gen.shapeCasts_S1x10112x128_S10112x128)
            (shapeCast S10112x128 (extractStridedSlice S1x10112x128 ![1, 0, 0] P Gen.slices_S2x10112x128_S1x10112x128_1_0_0) Gen.shapeCasts_S1x10112x128_S10112x128))
          Gen.bitsLt_bf16_f32)
        (truncf .bf16 W Gen.bitsLt_bf16_f32))
      (broadcastInDim S10112x128 ![0, 1] Gen.bcast_S1x128_S10112x128_0_1 (broadcastInDim S1x128 ![1] Gen.bcast_S128_S1x128_1 b)))
    Gen.slices_S10112x128_S10000x128_0_0

/-- The weight the host tail multiplies by: the launched weight, its format changed. -/
theorem V5_weightT (c : Dev nD) :
    (Gen.V5 m outs c main_v2 : S128x128.Idx → EReal)
      = truncf (F := Ideal) (s := S128x128) (φ := .f32) .bf16 (m ((c : Thread nD τ).loc main_arg4)) Gen.bitsLt_bf16_f32 := by
  refine (Gen.V5_of m outs c main_v2 (by decide)).trans <| (Gen.V4_of m outs c main_v2 (by decide)).trans ?_
  show StableHlo.after Gen.hostOps0_2 (StableHlo.after Gen.hostOps0_1 (StableHlo.after Gen.hostOps0 (Gen.V0 m c))) (Proc.devRef .tc main_v2) = _
  after_results <;> rfl

/-- The bias reaches the host tail as launched. -/
theorem V5_biasT (c : Dev nD) : Gen.V5 m outs c main_arg5 = m ((c : Thread nD τ).loc main_arg5) :=
  (Gen.V5_of m outs c main_arg5 (by decide)).trans <| (Gen.V4_of m outs c main_arg5 (by decide)).trans <| (Gen.V3_of m c main_arg5 (by decide)).trans <| (Gen.V2_of m c main_arg5 (by decide)).trans <| (Gen.V1_of m c main_arg5 (by decide)).trans rfl

/-- The result array is the host tail of what region 1 left, the launched weight and the launched bias. -/
theorem V6_result_eqT (c : Dev nD) :
    (Gen.V6 m outs c main_v15 : S10000x128.Idx → EReal)
      = tailT (outs 5 main_v4 c) (m ((c : Thread nD τ).loc main_arg4)) (m ((c : Thread nD τ).loc main_arg5)) := by
  show StableHlo.after Gen.hostOps2 (Gen.V5 m outs c) (Proc.devRef .tc main_v15) = _
  after_results
  rw [V5_parts m outs c, V5_weightT m outs c, V5_biasT m outs c]
  rfl

/-! ## The host tail at an index -/

/-- Half p of the partial sums, its unit axis dropped, at (n, k) is the partial sums at (p, n, k). -/
theorem half_applyT (P : FVec Ideal S2x10112x128 .f32) (o : Nat) (h : S2x10112x128.Slices ![o, 0, 0] S1x10112x128)
    (p : Fin 2) (hp : p.val = o) (n : Fin 10112) (k : Fin 128) :
    shapeCast S10112x128 (extractStridedSlice S1x10112x128 ![o, 0, 0] P h) Gen.shapeCasts_S1x10112x128_S10112x128 (ix2 n k)
      = P (ix3 p n k) := by
  refine (shapeCast_apply _ Gen.shapeCasts_S1x10112x128_S10112x128 (ix2 n k) (ix3 (0 : Fin 1) n k) ?_).trans ?_
  · rw [Shape.rowMajor_val_three, Shape.rowMajor_val_two]
    show (0 * 10112 + n.val) * 128 + k.val = n.val * 128 + k.val
    omega
  · exact extractStridedSlice_apply _ P h (ix3 (0 : Fin 1) n k) (ix3 p n k) (fun a => by
      match a with
      | ⟨0, _⟩ => show p.val = o + 0; omega
      | ⟨1, _⟩ => show n.val = 0 + n.val; omega
      | ⟨2, _⟩ => show k.val = 0 + k.val; omega)

/-- The product's left operand index on axis 0 is the result's row. -/
theorem lhs_tail_0T (i : S10112x128.Idx) (q : dot_S10112x128_S128x128_S10112x128_1_0_0_1_n_n.contr.Idx) :
    (dot_S10112x128_S128x128_S10112x128_1_0_0_1_n_n.lhsIdx i q 0).val = (i 0).val := by
  unfold DotDims.lhsIdx
  rw [dif_neg (show ¬(0 : Fin S10112x128.rank) ∈ dot_S10112x128_S128x128_S10112x128_1_0_0_1_n_n.lhsBatch by decide),
    dif_pos (show (0 : Fin S10112x128.rank) ∈ dot_S10112x128_S128x128_S10112x128_1_0_0_1_n_n.lhsNonContracting by decide)]
  rfl
/-- The product's left operand index on axis 1 is the contraction index. -/
theorem lhs_tail_1T (i : S10112x128.Idx) (q : dot_S10112x128_S128x128_S10112x128_1_0_0_1_n_n.contr.Idx) :
    (dot_S10112x128_S128x128_S10112x128_1_0_0_1_n_n.lhsIdx i q 1).val = (q ⟨0, by decide⟩).val :=
  dot_S10112x128_S128x128_S10112x128_1_0_0_1_n_n.lhsIdx_val_of_single rfl i q
/-- The product's right operand index on axis 0 is the contraction index. -/
theorem rhs_tail_0T (i : S10112x128.Idx) (q : dot_S10112x128_S128x128_S10112x128_1_0_0_1_n_n.contr.Idx) :
    (dot_S10112x128_S128x128_S10112x128_1_0_0_1_n_n.rhsIdx i q 0).val = (q ⟨0, by decide⟩).val :=
  dot_S10112x128_S128x128_S10112x128_1_0_0_1_n_n.rhsIdx_val_of_single rfl i q
/-- The product's right operand index on axis 1 is the result's column. -/
theorem rhs_tail_1T (i : S10112x128.Idx) (q : dot_S10112x128_S128x128_S10112x128_1_0_0_1_n_n.contr.Idx) :
    (dot_S10112x128_S128x128_S10112x128_1_0_0_1_n_n.rhsIdx i q 1).val = (i 1).val := by
  unfold DotDims.rhsIdx
  rw [dif_neg (show ¬(1 : Fin S128x128.rank) ∈ dot_S10112x128_S128x128_S10112x128_1_0_0_1_n_n.rhsBatch by decide),
    dif_pos (show (1 : Fin S128x128.rank) ∈ dot_S10112x128_S128x128_S10112x128_1_0_0_1_n_n.rhsNonContracting by decide)]
  rfl

/-- The host product at (n, j) is the sum over the feature axis of row n of the left operand against column j of the right. -/
theorem dot_applyT (A : FVec Ideal S10112x128 .bf16) (W : FVec Ideal S128x128 .bf16) (n : Fin 10112) (j : Fin 128) :
    Host.dotGeneral (F := Ideal) dot_S10112x128_S128x128_S10112x128_1_0_0_1_n_n none A W (ix2 n j)
      = ∑ k : Fin 128, A (ix2 n k) * W (ix2 k j) := by
  simp only [Host.dotGeneral]
  rw [Ideal.dotGeneral_apply, ← Equiv.sum_comp (contrEquiv1 dot_S10112x128_S128x128_S10112x128_1_0_0_1_n_n 128 rfl rfl).symm]
  refine Finset.sum_congr rfl fun k _ => ?_
  have hk := contrEquiv1_symm_val dot_S10112x128_S128x128_S10112x128_1_0_0_1_n_n 128 rfl rfl k
  have el : dot_S10112x128_S128x128_S10112x128_1_0_0_1_n_n.lhsIdx (ix2 n j)
      ((contrEquiv1 dot_S10112x128_S128x128_S10112x128_1_0_0_1_n_n 128 rfl rfl).symm k) = ix2 n k := funext fun a => Fin.ext (by
    match a with
    | ⟨0, _⟩ => exact lhs_tail_0T _ _
    | ⟨1, _⟩ => exact (lhs_tail_1T _ _).trans hk)
  have er : dot_S10112x128_S128x128_S10112x128_1_0_0_1_n_n.rhsIdx (ix2 n j)
      ((contrEquiv1 dot_S10112x128_S128x128_S10112x128_1_0_0_1_n_n 128 rfl rfl).symm k) = ix2 k j := funext fun a => Fin.ext (by
    match a with
    | ⟨0, _⟩ => exact (rhs_tail_0T _ _).trans hk
    | ⟨1, _⟩ => exact rhs_tail_1T _ _)
  rw [el, er]

/-- The bias broadcast to every row reads the bias at the column. -/
theorem bias_applyT (b : FVec Ideal S128 .f32) (n : Fin 10112) (j : Fin 128) :
    broadcastInDim S10112x128 ![0, 1] Gen.bcast_S1x128_S10112x128_0_1 (broadcastInDim S1x128 ![1] Gen.bcast_S128_S1x128_1 b) (ix2 n j)
      = b (ix1 j) := by
  refine (broadcastInDim_apply _ Gen.bcast_S1x128_S10112x128_0_1 _ (ix2 n j) (ix2 (0 : Fin 1) j) (fun a => by
    match a with
    | ⟨0, _⟩ => show 0 = if (1 : Nat) = 1 then 0 else n.val; rw [if_pos rfl]
    | ⟨1, _⟩ => show j.val = if (128 : Nat) = 1 then 0 else j.val; rw [if_neg (by decide)])).trans ?_
  exact broadcastInDim_apply _ Gen.bcast_S128_S1x128_1 b (ix2 (0 : Fin 1) j) (ix1 j) (fun a => by
    match a with
    | ⟨0, _⟩ => show j.val = if (128 : Nat) = 1 then 0 else j.val; rw [if_neg (by decide)])

/-- The host tail at (n, j): the sum over the feature axis of the two partial sums added, against the weight, plus the bias. -/
theorem tail_applyT (P : FVec Ideal S2x10112x128 .f32) (W : FVec Ideal S128x128 .f32) (b : FVec Ideal S128 .f32)
    (n : Fin 10000) (j : Fin 128) :
    tailT P W b (ix2 n j)
      = (∑ k : Fin 128, (P (ix3 (0 : Fin 2) ⟨n.val, by omega⟩ k) + P (ix3 (1 : Fin 2) ⟨n.val, by omega⟩ k)) * W (ix2 k j)) + b (ix1 j) := by
  unfold tailT
  refine (slice2_axis0_apply 0 _ Gen.slices_S10112x128_S10000x128_0_0 n j ⟨n.val, by omega⟩ (by show n.val = 0 + n.val; omega)).trans ?_
  rw [addf_apply, dot_applyT, bias_applyT]
  refine congrArg (· + b (ix1 j)) (Finset.sum_congr rfl fun k _ => ?_)
  rw [truncf_apply, truncf_apply, addf_apply,
    half_applyT P 0 Gen.slices_S2x10112x128_S1x10112x128_0_0_0 0 rfl,
    half_applyT P 1 Gen.slices_S2x10112x128_S1x10112x128_1_0_0 1 rfl]

/-- The result at (n, j): the sum over the feature axis of the two partial sums region 1 left, added, against the launched
    weight, plus the launched bias. The three arrays enter as variables of their literal types, each with its equation,
    so that the sum and the products are those of the extended reals. -/
theorem V6_result_apply (c : Dev nD) (n : Fin 10000) (j : Fin 128)
    (P : S2x10112x128.Idx → EReal) (hP : P = outs 5 main_v4 c)
    (W : S128x128.Idx → EReal) (hW : W = m ((c : Thread nD τ).loc main_arg4))
    (b : S128.Idx → EReal) (hb : b = m ((c : Thread nD τ).loc main_arg5)) :
    (Gen.V6 m outs c main_v15 : S10000x128.Idx → EReal) (ix2 n j)
      = (∑ k : Fin 128, (P (ix3 (0 : Fin 2) ⟨n.val, by omega⟩ k) + P (ix3 (1 : Fin 2) ⟨n.val, by omega⟩ k)) * W (ix2 k j))
        + b (ix1 j) := by
  subst hP hW hb
  refine (congrFun (V6_result_eqT m outs c) (ix2 n j)).trans ?_
  exact tail_applyT _ _ _ n j

end Cert.KernelIdeal.HandValue

end
-- ==== Proof.KI.Val0.lean ====
/- Region 0's output array, read at an index: every point of the grid writes its message tile back, tile `t` is rows
   `1024 t … 1024 t + 1023` of the array, so row `e` holds what point `e / 1024` computed at local row `e % 1024`; and
   the three input blocks as reads of the arrays the region is entered with. -/
import proofs.«413453_j67723044323421_3_alg».proof.Proof.KI.R0
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The grid and the index maps -/

/-- A point of the grid is below 625. -/
theorem pt_lt (t : Fin cfg0.N) : t.val < 625 := by
  have h : t.val < cfg0.N := t.isLt
  have hN : cfg0.N = 625 := N_0
  omega

/-- The index maps of the four windows, decided over the grid: the two edge tiles and the message tile move with the
    point, the table stays at block zero. -/
theorem idx_facts0 : ∀ t : Fin cfg0.N, win0_0.index t (0 : Fin 1) = t.val
    ∧ win0_1.index t (0 : Fin 1) = t.val
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The point whose tile holds edge `e`. -/
def ptOf (e : Fin 640000) : Fin cfg0.N := ⟨e.val / 1024, by
  rw [show cfg0.N = 625 from N_0]; have := e.isLt; omega⟩

theorem ptOf_val (e : Fin 640000) : (ptOf e).val = e.val / 1024 := rfl

/-! ## The input blocks as reads of the entry arrays -/

/-- The source-index tile at point `t`, entry `j`: edge `1024 t + j` of the source-index array. -/
theorem iblk0_src_apply (c : Dev nD) (t : Fin cfg0.N) (j : Fin 1024) :
    (Hand.iblk0 V c 0 t : Vec Ideal S1024 .i32) (ix1 j)
      = (V c main_arg1 : S640000.Idx → Elt Ideal .i32) (ix1 ⟨t.val * 1024 + j.val, by have := pt_lt t; have := j.isLt; omega⟩) := by
  obtain ⟨e0, -⟩ := idx_facts0 t
  unfold Hand.iblk0
  rw [View.read_apply]
  show V c main_arg1 _ = V c main_arg1 _
  congr 1
  funext a
  apply Fin.ext
  match a with
  | ⟨0, _⟩ => show win0_0.index t (0 : Fin 1) * 1024 + 1 * j.val = t.val * 1024 + j.val; rw [e0]; omega

/-- The edge-weight tile at point `t`, entry `j`: edge `1024 t + j` of the weight array. -/
theorem iblk0_w_apply (c : Dev nD) (t : Fin cfg0.N) (j : Fin 1024) :
    (Hand.iblk0 V c 1 t : Vec Ideal S1024 .f32) (ix1 j)
      = (V c main_arg3 : S640000.Idx → Elt Ideal .f32) (ix1 ⟨t.val * 1024 + j.val, by have := pt_lt t; have := j.isLt; omega⟩) := by
  obtain ⟨-, e1, -⟩ := idx_facts0 t
  unfold Hand.iblk0
  rw [View.read_apply]
  show V c main_arg3 _ = V c main_arg3 _
  congr 1
  funext a
  apply Fin.ext
  match a with
  | ⟨0, _⟩ => show win0_1.index t (0 : Fin 1) * 1024 + 1 * j.val = t.val * 1024 + j.val; rw [e1]; omega

/-- The table's block at every point is the whole padded table. -/
theorem iblk0_tab_eq (c : Dev nD) (t : Fin cfg0.N) :
    (Hand.iblk0 V c 2 t : Vec Ideal S10112x128 .bf16) = (V c main_v1 : S10112x128.Idx → Elt Ideal .bf16) := by
  obtain ⟨-, -, e2, e3, -⟩ := idx_facts0 t
  funext x
  unfold Hand.iblk0
  rw [View.read_apply]
  show V c main_v1 _ = V c main_v1 _
  congr 1
  funext a
  apply Fin.ext
  match a with
  | ⟨0, _⟩ => show win0_2.index t (0 : Fin 2) * 10112 + 1 * (x 0).val = (x 0).val; rw [e2]; omega
  | ⟨1, _⟩ => show win0_2.index t (1 : Fin 2) * 128 + 1 * (x 1).val = (x 1).val; rw [e3]; omega

/-! ## The message array -/

theorem hz1 : (![0] : Fin 1 → Nat) = fun _ => 0 := funext fun a => by fin_cases a; rfl
theorem hz2 : (![0, 0] : Fin 2 → Nat) = fun _ => 0 := funext fun a => by fin_cases a <;> rfl

/-- What point `t` writes back to the message array: the gathered-and-scaled tile of its three input blocks. -/
theorem flushed0_3 (c : Dev nD) (t : Fin cfg0.N) :
    (Hand.dat0 V c).flushed 3 t
      = k0_pay1 (F := Ideal) (Hand.iblk0 V c 0 t) (Hand.iblk0 V c 1 t) (Hand.iblk0 V c 2 t) := by
  show (cfg0.win 3).cut (grid0.coords t) ((Hand.dat0 V c).after 3 t) = _
  rw [Hand.after0_3]
  unfold Hand.out0_3
  rw [View.canon_unit_zero hz2]
  simp only [View.ld_unit_zero (S := S1024) hz1, View.ld_unit_zero (S := S10112x128) hz2]
  rfl

/-- Distinct points write distinct tiles: the message tile's row-block index is the point itself. -/
theorem idx_inj0_3 : ∀ t t' : Fin cfg0.N, win0_3.index t = win0_3.index t' → t = t' := fun t t' h => by
  obtain ⟨-, -, -, -, a, -⟩ := idx_facts0 t
  obtain ⟨-, -, -, -, b, -⟩ := idx_facts0 t'
  apply Fin.ext
  rw [← a, ← b, h]

/-- So two points' tiles share no index of the array. -/
theorem disjoint0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj0_3 t t' h)

/-- THE MESSAGE ARRAY AT AN INDEX after the region: row `e` is local row `e % 1024` of what point `e / 1024` computed from
    its three input blocks. -/
theorem msgs_apply (c : Dev nD) (e : Fin 640000) (k : Fin 128) :
    ((Hand.dat0 V c).arrAt 3 cfg0.N : S640000x128.Idx → Elt Ideal .bf16) (ix2 e k)
      = k0_pay1 (F := Ideal) (Hand.iblk0 V c 0 (ptOf e)) (Hand.iblk0 V c 1 (ptOf e)) (Hand.iblk0 V c 2 (ptOf e))
          (ix2 (⟨e.val % 1024, Nat.mod_lt _ (by decide)⟩ : Fin 1024) k) := by
  have h := congrFun ((Hand.dat0 V c).read_blk_arrAt_eq_flushed 3 (disjoint0_3) cfg0.N (ptOf e) (ptOf e).isLt (flush0_3 _))
    (ix2 (⟨e.val % 1024, Nat.mod_lt _ (by decide)⟩ : Fin 1024) k)
  rw [View.read_apply, flushed0_3] at h
  rw [← h]
  show (Hand.dat0 V c).arrAt 3 cfg0.N _ = (Hand.dat0 V c).arrAt 3 cfg0.N _
  congr 1
  obtain ⟨-, -, -, -, e4, e5⟩ := idx_facts0 (ptOf e)
  funext a
  apply Fin.ext
  match a with
  | ⟨0, _⟩ => show e.val = win0_3.index (ptOf e) (0 : Fin 2) * 1024 + 1 * (e.val % 1024); rw [e4, ptOf_val]; omega
  | ⟨1, _⟩ => show k.val = win0_3.index (ptOf e) (1 : Fin 2) * 128 + 1 * k.val; rw [e5]; omega

end Cert.KernelIdeal.HandValue
end
-- ==== Proof.KI.Pay.lean ====
/-
  The payloads of the two kernels read at an index, at the extended reals.

  The gather's payload is a one-hot matrix (row number compared with the source word, as a real `0` or `1`) contracted
  with the padded table over the table's rows, times the edge weight; the scatter's three payloads are the zero fill of
  the accumulator, the accumulator plus a one-hot matrix (row number compared with the destination word) contracted
  with the message tile over the tile's entries, and the accumulator viewed under a leading unit axis. Each theorem
  names the payload's element at an index by the operands' elements: the layout operations are read at the index,
  the comparison's bit is turned into the `if` it encodes, and the contraction's sum is re-indexed by its one coordinate.
-/
import proofs.«413453_j67723044323421_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.ValueIdx Cert.KernelIdeal Cert.KernelIdeal.Gen

/-! ## Layout operations read at an index: the column forms -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Words: the one-hot entry -/

/-- A comparison's bit widened to a word and converted signed is the real `1` where the operands are equal and `0`
    elsewhere. -/
theorem sitofp_extui_cmpi_eq (a b : BitVec 32) :
    (FloatOps.sitofp (F := Ideal) .f32 ((IntOp.cmpi .eq a b).setWidth 32) : Ideal .f32) = if a = b then 1 else 0 := by
  show ((((IntOp.cmpi .eq a b).setWidth 32).toInt : ℝ) : EReal) = _
  by_cases h : a = b
  · rw [if_pos h, IntOp.cmpi_eq.2 h]
    norm_num
  · rw [if_neg h, eq_zero_of_ne_one (fun h1 => h (IntOp.cmpi_eq.1 h1))]
    norm_num

/-- A 32-bit word is the word of a number below `2 ^ 31` exactly when its signed value is that number. -/
theorem ofNat_eq_iff_toInt (n : ℕ) (hn : n < 2 ^ 31) (w : BitVec 32) : BitVec.ofNat 32 n = w ↔ w.toInt = (n : ℤ) := by
  constructor
  · rintro rfl
    rw [BitVec.toInt_eq_toNat_cond, BitVec.toNat_ofNat]
    have : n % 2 ^ 32 = n := Nat.mod_eq_of_lt (by omega)
    rw [this, if_pos (by omega)]
  · intro h
    apply BitVec.eq_of_toNat_eq
    rw [BitVec.toNat_ofNat]
    have e := BitVec.toInt_eq_toNat_cond w
    have := w.isLt
    have : n % 2 ^ 32 = n := Nat.mod_eq_of_lt (by omega)
    rw [this]
    split at e <;> omega

/-! ## The one-hot matrix read at an entry -/

/-- The printed one-hot matrix `[A, E]` of a vector `s` of `E` words — the row number compared with the word, the bit
    widened, converted and rounded to the narrower format (the identity on the extended reals) — is, at `(n, e)`, the real
    `1` where the word `s e` is the word of `n`, and `0` elsewhere. -/
theorem onehot_apply {A E : ℕ} (hi : (⟨2, ![A, 1]⟩ : Shape).Iotas .tc 32 [0])
    (hb1 : (⟨2, ![A, 1]⟩ : Shape).Broadcasts ⟨2, ![A, E]⟩) (hc : (⟨1, ![E]⟩ : Shape).ShapeCasts ⟨2, ![1, E]⟩)
    (hb2 : (⟨2, ![1, E]⟩ : Shape).Broadcasts ⟨2, ![A, E]⟩) (h1 : 1 < 32) (hbits : FTy.bf16.bits < FTy.f32.bits)
    (s : IVec ⟨1, ![E]⟩ 32) (n : Fin A) (e : Fin E) :
    (truncf .bf16 (sitofp .f32 (extui 32 (cmpi .eq (broadcastTo ⟨2, ![A, E]⟩ (iota .tc ⟨2, ![A, 1]⟩ 32 [0] hi) hb1)
        (broadcastTo ⟨2, ![A, E]⟩ (shapeCast ⟨2, ![1, E]⟩ s hc) hb2)) h1) : FVec Ideal ⟨2, ![A, E]⟩ .f32) hbits : FVec Ideal ⟨2, ![A, E]⟩ .bf16) (ix2 n e)
      = if BitVec.ofNat 32 n.val = s (ix1 e) then 1 else 0 := by
  show (FloatOps.sitofp (F := Ideal) .f32 ((IntOp.cmpi .eq (broadcastTo ⟨2, ![A, E]⟩ (iota .tc ⟨2, ![A, 1]⟩ 32 [0] hi) hb1 (ix2 n e))
      (broadcastTo ⟨2, ![A, E]⟩ (shapeCast ⟨2, ![1, E]⟩ s hc) hb2 (ix2 n e))).setWidth 32) : Ideal .f32) = _
  rw [sitofp_extui_cmpi_eq, broadcastTo_a1_ab_apply, iota_single_apply, broadcastTo_1b_ab_apply, shapeCast_a_1a_apply]
  rfl

/-! ## The two matrix products read at an index

The gather's product contracts axis 0 of both operands; the scatter's contracts axis 1 of the left operand with axis 0
of the right one. Each operand index is named coordinate by coordinate, then the contraction's sum is re-indexed by its
one coordinate. -/

theorem lhs_k0_0 (i : S1024x128.Idx) (q : dot_S10112x1024_S10112x128_S1024x128_0_0_1_1_n_n.contr.Idx) :
    (dot_S10112x1024_S10112x128_S1024x128_0_0_1_1_n_n.lhsIdx i q 0).val = (q ⟨0, by decide⟩).val :=
  dot_S10112x1024_S10112x128_S1024x128_0_0_1_1_n_n.lhsIdx_val_of_single rfl i q
theorem lhs_k0_1 (i : S1024x128.Idx) (q : dot_S10112x1024_S10112x128_S1024x128_0_0_1_1_n_n.contr.Idx) :
    (dot_S10112x1024_S10112x128_S1024x128_0_0_1_1_n_n.lhsIdx i q 1).val = (i 0).val := by
  unfold DotDims.lhsIdx
  rw [dif_neg (show ¬(1 : Fin S10112x1024.rank) ∈ dot_S10112x1024_S10112x128_S1024x128_0_0_1_1_n_n.lhsBatch by decide), dif_pos (show (1 : Fin S10112x1024.rank) ∈ dot_S10112x1024_S10112x128_S1024x128_0_0_1_1_n_n.lhsNonContracting by decide)]
  rfl
theorem rhs_k0_0 (i : S1024x128.Idx) (q : dot_S10112x1024_S10112x128_S1024x128_0_0_1_1_n_n.contr.Idx) :
    (dot_S10112x1024_S10112x128_S1024x128_0_0_1_1_n_n.rhsIdx i q 0).val = (q ⟨0, by decide⟩).val :=
  dot_S10112x1024_S10112x128_S1024x128_0_0_1_1_n_n.rhsIdx_val_of_single rfl i q
theorem rhs_k0_1 (i : S1024x128.Idx) (q : dot_S10112x1024_S10112x128_S1024x128_0_0_1_1_n_n.contr.Idx) :
    (dot_S10112x1024_S10112x128_S1024x128_0_0_1_1_n_n.rhsIdx i q 1).val = (i 1).val := by
  unfold DotDims.rhsIdx
  rw [dif_neg (show ¬(1 : Fin S10112x128.rank) ∈ dot_S10112x1024_S10112x128_S1024x128_0_0_1_1_n_n.rhsBatch by decide), dif_pos (show (1 : Fin S10112x128.rank) ∈ dot_S10112x1024_S10112x128_S1024x128_0_0_1_1_n_n.rhsNonContracting by decide)]
  rfl

/-- The gather's product into the zero accumulator at `(e', k)`: the sum over the table's rows `n` of the left operand
    at `(n, e')` times the right operand at `(n, k)`. -/
theorem matmul_k0_apply (L : FVec Ideal S10112x1024 .bf16) (R : FVec Ideal S10112x128 .bf16) (e' : Fin 1024) (k : Fin 128) :
    matmul dot_S10112x1024_S10112x128_S1024x128_0_0_1_1_n_n none L R (constant (F := Ideal) S1024x128 .f32 0x00000000#32) (ix2 e' k)
      = ∑ n : Fin 10112, L (ix2 n e') * R (ix2 n k) := by
  simp only [matmul]
  rw [Ideal.matmul_constant_zero_apply, ← Equiv.sum_comp (contrEquiv1 dot_S10112x1024_S10112x128_S1024x128_0_0_1_1_n_n 10112 rfl rfl).symm]
  refine Finset.sum_congr rfl fun n _ => ?_
  have hk := contrEquiv1_symm_val dot_S10112x1024_S10112x128_S1024x128_0_0_1_1_n_n 10112 rfl rfl n
  have el : dot_S10112x1024_S10112x128_S1024x128_0_0_1_1_n_n.lhsIdx (ix2 e' k) ((contrEquiv1 dot_S10112x1024_S10112x128_S1024x128_0_0_1_1_n_n 10112 rfl rfl).symm n) = ix2 n e' := funext fun a => Fin.ext (by
    match a with
    | ⟨0, _⟩ => exact (lhs_k0_0 _ _).trans hk
    | ⟨1, _⟩ => exact lhs_k0_1 _ _)
  have er : dot_S10112x1024_S10112x128_S1024x128_0_0_1_1_n_n.rhsIdx (ix2 e' k) ((contrEquiv1 dot_S10112x1024_S10112x128_S1024x128_0_0_1_1_n_n 10112 rfl rfl).symm n) = ix2 n k := funext fun a => Fin.ext (by
    match a with
    | ⟨0, _⟩ => exact (rhs_k0_0 _ _).trans hk
    | ⟨1, _⟩ => exact rhs_k0_1 _ _)
  rw [el, er]

theorem lhs_k1_0 (i : S10112x128.Idx) (q : dot_S10112x512_S512x128_S10112x128_1_0_0_1_n_n.contr.Idx) :
    (dot_S10112x512_S512x128_S10112x128_1_0_0_1_n_n.lhsIdx i q 0).val = (i 0).val := by
  unfold DotDims.lhsIdx
  rw [dif_neg (show ¬(0 : Fin S10112x512.rank) ∈ dot_S10112x512_S512x128_S10112x128_1_0_0_1_n_n.lhsBatch by decide), dif_pos (show (0 : Fin S10112x512.rank) ∈ dot_S10112x512_S512x128_S10112x128_1_0_0_1_n_n.lhsNonContracting by decide)]
  rfl
theorem lhs_k1_1 (i : S10112x128.Idx) (q : dot_S10112x512_S512x128_S10112x128_1_0_0_1_n_n.contr.Idx) :
    (dot_S10112x512_S512x128_S10112x128_1_0_0_1_n_n.lhsIdx i q 1).val = (q ⟨0, by decide⟩).val :=
  dot_S10112x512_S512x128_S10112x128_1_0_0_1_n_n.lhsIdx_val_of_single rfl i q
theorem rhs_k1_0 (i : S10112x128.Idx) (q : dot_S10112x512_S512x128_S10112x128_1_0_0_1_n_n.contr.Idx) :
    (dot_S10112x512_S512x128_S10112x128_1_0_0_1_n_n.rhsIdx i q 0).val = (q ⟨0, by decide⟩).val :=
  dot_S10112x512_S512x128_S10112x128_1_0_0_1_n_n.rhsIdx_val_of_single rfl i q
theorem rhs_k1_1 (i : S10112x128.Idx) (q : dot_S10112x512_S512x128_S10112x128_1_0_0_1_n_n.contr.Idx) :
    (dot_S10112x512_S512x128_S10112x128_1_0_0_1_n_n.rhsIdx i q 1).val = (i 1).val := by
  unfold DotDims.rhsIdx
  rw [dif_neg (show ¬(1 : Fin S512x128.rank) ∈ dot_S10112x512_S512x128_S10112x128_1_0_0_1_n_n.rhsBatch by decide), dif_pos (show (1 : Fin S512x128.rank) ∈ dot_S10112x512_S512x128_S10112x128_1_0_0_1_n_n.rhsNonContracting by decide)]
  rfl

/-- The scatter's product into the zero accumulator at `(n, k)`: the sum over the tile's entries `e'` of the left operand
    at `(n, e')` times the right operand at `(e', k)`. -/
theorem matmul_k1_apply (L : FVec Ideal S10112x512 .bf16) (R : FVec Ideal S512x128 .bf16) (n : Fin 10112) (k : Fin 128) :
    matmul dot_S10112x512_S512x128_S10112x128_1_0_0_1_n_n none L R (constant (F := Ideal) S10112x128 .f32 0x00000000#32) (ix2 n k)
      = ∑ e' : Fin 512, L (ix2 n e') * R (ix2 e' k) := by
  simp only [matmul]
  rw [Ideal.matmul_constant_zero_apply, ← Equiv.sum_comp (contrEquiv1 dot_S10112x512_S512x128_S10112x128_1_0_0_1_n_n 512 rfl rfl).symm]
  refine Finset.sum_congr rfl fun e' _ => ?_
  have hk := contrEquiv1_symm_val dot_S10112x512_S512x128_S10112x128_1_0_0_1_n_n 512 rfl rfl e'
  have el : dot_S10112x512_S512x128_S10112x128_1_0_0_1_n_n.lhsIdx (ix2 n k) ((contrEquiv1 dot_S10112x512_S512x128_S10112x128_1_0_0_1_n_n 512 rfl rfl).symm e') = ix2 n e' := funext fun a => Fin.ext (by
    match a with
    | ⟨0, _⟩ => exact lhs_k1_0 _ _
    | ⟨1, _⟩ => exact (lhs_k1_1 _ _).trans hk)
  have er : dot_S10112x512_S512x128_S10112x128_1_0_0_1_n_n.rhsIdx (ix2 n k) ((contrEquiv1 dot_S10112x512_S512x128_S10112x128_1_0_0_1_n_n 512 rfl rfl).symm e') = ix2 e' k := funext fun a => Fin.ext (by
    match a with
    | ⟨0, _⟩ => exact (rhs_k1_0 _ _).trans hk
    | ⟨1, _⟩ => exact rhs_k1_1 _ _)
  rw [el, er]

/-! ## The gather's payload and the scatter's accumulation -/

/-- The gather's payload at `(e', k)`: the one-hot matrix `oh[n, e'] = [word of n = s e']` contracted over the table's rows
    with the table, `∑ n, oh[n, e'] · xp[n, k]`, has exactly one non-zero term when the word `s e'` reads as a row number
    below 10112 (`0 · y = 0` and `1 · y = y` for every extended real `y`), namely the table's row `s e'` at `k`; the
    result is that entry times the weight `wv e'`, the weights being one column broadcast along the lanes. -/
theorem k0_pay1_apply (s : Vec Ideal S1024 .i32) (wv : Vec Ideal S1024 .f32) (xp : Vec Ideal S10112x128 .bf16) (e' : Fin 1024) (k : Fin 128)
    (hs : 0 ≤ (s (ix1 e')).toInt ∧ (s (ix1 e')).toInt < 10112) :
    k0_pay1 (F := Ideal) s wv xp (ix2 e' k) = xp (ix2 ⟨(s (ix1 e')).toInt.toNat, by omega⟩ k) * wv (ix1 e') := by
  unfold k0_pay1
  simp only [truncf_apply, mulf_apply]
  rw [matmul_k0_apply, shapeCast_self, broadcastTo_a1_ab_apply, shapeCast_a_a1_apply]
  congr 1
  rw [Finset.sum_eq_single (⟨(s (ix1 e')).toInt.toNat, by omega⟩ : Fin 10112)]
  · rw [onehot_apply, if_pos ((ofNat_eq_iff_toInt _ (by omega) _).2 (by simp only []; omega)), one_mul]
  · intro n _ hn
    rw [onehot_apply, if_neg (fun h => hn (Fin.ext (by
      have := (ofNat_eq_iff_toInt n.val (by have := n.isLt; omega) _).1 h
      simp only []; omega))), zero_mul]
  · intro h; exact absurd (Finset.mem_univ _) h

/-- The scatter's accumulation at `(n, k)`: the accumulator there plus `∑ e', oh[n, e'] · mb[e', k]` with
    `oh[n, e'] = [word of n = d e']`; a 32-bit word is the word of `n < 10112` exactly when its signed value is `n`, so the
    sum runs over the tile's entries whose destination is row `n`. -/
theorem k1_pay2_apply (d : Vec Ideal S512 .i32) (mb : Vec Ideal S512x128 .bf16) (acc : Vec Ideal S10112x128 .f32) (n : Fin 10112) (k : Fin 128) :
    k1_pay2 (F := Ideal) d mb acc (ix2 n k) = acc (ix2 n k) + ∑ e' : Fin 512, if (d (ix1 e')).toInt = (n.val : Int) then mb (ix2 e' k) else 0 := by
  unfold k1_pay2
  rw [shapeCast_self]
  simp only [addf_apply]
  rw [matmul_k1_apply, shapeCast_self]
  congr 1
  refine Finset.sum_congr rfl fun e' _ => ?_
  rw [onehot_apply]
  by_cases h : (d (ix1 e')).toInt = (n.val : Int)
  · rw [if_pos h, if_pos ((ofNat_eq_iff_toInt _ (by have := n.isLt; omega) _).2 h), one_mul]
  · rw [if_neg h, if_neg (fun h' => h ((ofNat_eq_iff_toInt _ (by have := n.isLt; omega) _).1 h')), zero_mul]

/-! ## The zero fill and the copy-out -/

/-- The zero fill: the splat of the f32 zero word is the real `0` at every index. -/
theorem k1_pay1_apply (i : S10112x128.Idx) : k1_pay1 (F := Ideal) i = 0 := by
  unfold k1_pay1
  rw [shapeCast_self]
  show Ideal.ofBits .f32 0x00000000#32 = 0
  exact Ideal.ofBits_zero_f32

/-- The copy-out: a `[10112, 128]` array viewed as `[1, 10112, 128]` reads, at `(0, n, k)`, the array at `(n, k)`. -/
theorem k1_pay3_apply (v : Vec Ideal S10112x128 .f32) (n : Fin 10112) (k : Fin 128) :
    k1_pay3 (F := Ideal) v (ix3 (0 : Fin 1) n k) = v (ix2 n k) := by
  unfold k1_pay3
  exact shapeCast_ab_1ab_apply v _ (0 : Fin 1) n k

end Cert.KernelIdeal.HandValue
-- ==== Proof.KI.Val0b.lean ====
/- Region 0's output array in closed form: row `e`, column `k` of the message array is row `src e` of the padded table at
   column `k`, times the weight of edge `e` — the tile-local reading of the payload composed with the reads of the three
   input blocks off the arrays the region is entered with. -/
import proofs.«413453_j67723044323421_3_alg».proof.Proof.KI.Val0
import proofs.«413453_j67723044323421_3_alg».proof.Proof.KI.Pay
set_option maxRecDepth 16384

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The local row of edge `e` inside its tile. -/
abbrev locOf0 (e : Fin 640000) : Fin 1024 := ⟨e.val % 1024, Nat.mod_lt _ (by decide)⟩

/-- Edge `e`'s source index, read from its tile: tile `e / 1024` at local row `e % 1024` is entry `e` of the array. -/
theorem src_at0 (c : Dev nD) (e : Fin 640000) :
    (Hand.iblk0 V c 0 (ptOf e) : Vec Ideal S1024 .i32) (ix1 (locOf0 e))
      = (V c main_arg1 : S640000.Idx → Elt Ideal .i32) (ix1 e) :=
  (iblk0_src_apply V c (ptOf e) (locOf0 e)).trans
    (congrArg (fun j : Fin 640000 => (V c main_arg1 : S640000.Idx → Elt Ideal .i32) (ix1 j))
      (Fin.ext (by show (ptOf e).val * 1024 + e.val % 1024 = e.val; rw [ptOf_val]; omega)))

/-- Edge `e`'s weight, read from its tile. -/
theorem w_at0 (c : Dev nD) (e : Fin 640000) :
    (Hand.iblk0 V c 1 (ptOf e) : Vec Ideal S1024 .f32) (ix1 (locOf0 e))
      = (V c main_arg3 : S640000.Idx → Elt Ideal .f32) (ix1 e) :=
  (iblk0_w_apply V c (ptOf e) (locOf0 e)).trans
    (congrArg (fun j : Fin 640000 => (V c main_arg3 : S640000.Idx → Elt Ideal .f32) (ix1 j))
      (Fin.ext (by show (ptOf e).val * 1024 + e.val % 1024 = e.val; rw [ptOf_val]; omega)))

/-- A table row named by two equal index words is one row. -/
theorem row_congr0 (X : Vec Ideal S10112x128 .bf16) (a b : BitVec 32) (h : a = b)
    (ha : a.toInt.toNat < 10112) (hb : b.toInt.toNat < 10112) (k : Fin 128) :
    X (ix2 (⟨a.toInt.toNat, ha⟩ : Fin 10112) k) = X (ix2 (⟨b.toInt.toNat, hb⟩ : Fin 10112) k) := by
  subst h; rfl

/-- THE MESSAGE ARRAY IN CLOSED FORM, over the three entry arrays named at their literal types (`src` the source
    indices, `wv` the edge weights, `tab` the padded table): where edge `e`'s source index is a row of the table, the
    message at `(e, k)` is that row's entry `k` times the edge's weight. -/
theorem msgs_closed_of (c : Dev nD) (src : Vec Ideal S640000 .i32) (wv : Vec Ideal S640000 .f32)
    (tab : Vec Ideal S10112x128 .bf16) (hsrc : src = V c main_arg1) (hw : wv = V c main_arg3) (htab : tab = V c main_v1)
    (e : Fin 640000) (k : Fin 128) (hs : 0 ≤ (src (ix1 e)).toInt ∧ (src (ix1 e)).toInt < 10112) :
    ((Hand.dat0 V c).arrAt 3 cfg0.N : S640000x128.Idx → Elt Ideal .bf16) (ix2 e k)
      = tab (ix2 ⟨(src (ix1 e)).toInt.toNat, by omega⟩ k) * wv (ix1 e) := by
  subst hsrc; subst hw; subst htab
  have h0 := src_at0 V c e
  have h1 := w_at0 V c e
  have hs' : 0 ≤ ((Hand.iblk0 V c 0 (ptOf e) : Vec Ideal S1024 .i32) (ix1 (locOf0 e))).toInt
      ∧ ((Hand.iblk0 V c 0 (ptOf e) : Vec Ideal S1024 .i32) (ix1 (locOf0 e))).toInt < 10112 := by
    rw [h0]; exact hs
  refine (msgs_apply V c e k).trans ?_
  refine (k0_pay1_apply (Hand.iblk0 V c 0 (ptOf e)) (Hand.iblk0 V c 1 (ptOf e)) (Hand.iblk0 V c 2 (ptOf e)) (locOf0 e) k hs').trans ?_
  rw [h1, iblk0_tab_eq V c (ptOf e)]
  exact congrArg (· * (V c main_arg3 : Vec Ideal S640000 .f32) (ix1 e))
    (row_congr0 (V c main_v1 : Vec Ideal S10112x128 .bf16) _ _ h0 (by omega) (by omega) k)

/-- The three entry arrays of the region at their literal types. -/
abbrev srcArr0 (c : Dev nD) : Vec Ideal S640000 .i32 := V c main_arg1
abbrev wArr0 (c : Dev nD) : Vec Ideal S640000 .f32 := V c main_arg3
abbrev tabArr0 (c : Dev nD) : Vec Ideal S10112x128 .bf16 := V c main_v1

/-- The same, at the region's entry arrays themselves. -/
theorem msgs_closed (c : Dev nD) (e : Fin 640000) (k : Fin 128)
    (hs : 0 ≤ (srcArr0 V c (ix1 e)).toInt ∧ (srcArr0 V c (ix1 e)).toInt < 10112) :
    ((Hand.dat0 V c).arrAt 3 cfg0.N : S640000x128.Idx → Elt Ideal .bf16) (ix2 e k)
      = tabArr0 V c (ix2 ⟨(srcArr0 V c (ix1 e)).toInt.toNat, by omega⟩ k) * wArr0 V c (ix1 e) :=
  msgs_closed_of V c (srcArr0 V c) (wArr0 V c) (tabArr0 V c) rfl rfl rfl e k hs

end Cert.KernelIdeal.HandValue
end
-- ==== Proof.KI.Val1.lean ====
/-
  The value of the scatter call: what its output array, two slabs of 10112 × 128 extended reals, holds afterwards.

  The call walks 2 × 625 points in order. Point p · 625 + j reads tile p · 625 + j of the destination words (512 of
  them) and of the messages (512 rows of 128 features), and adds into an accumulator, for every node n, the rows of the
  tile whose destination word, read as a signed integer, is n. The accumulator is set to zero before the first tile of a
  half and copied, under a leading unit axis, to slab p of the output after the last tile of the half. So

      out (p, n, k) = Σ_{t < 625} Σ_{e < 512} [dst ((p · 625 + t) · 512 + e) = n] · msgs ((p · 625 + t) · 512 + e, k).

  The steps: the accumulation as a recursion over the points and its closed form by induction on the position inside a
  half; what each of the three kinds of point (first, middle, last of a half) leaves in the accumulator and in the
  output's buffer, read off the pieces each stores; the tiles as ranges of the two input arrays; the output array from
  the two blocks written back, one per half, which cover it.
-/
import proofs.«413453_j67723044323421_3_alg».proof.Proof.KI.R1
import proofs.«413453_j67723044323421_3_alg».proof.Proof.KI.Pay
import Idealize.ShloMosaic.PureOps.Ideal
import Idealize.ShloMosaic.Lib.Pipeline.Value
import Idealize.ShloMosaic.Lib.ValueIdx
import Idealize.ShloMosaic.Lib.Tactic

-- membership of an index in a rectangle of these extents is checked structurally, once per coordinate of the long axes
set_option maxRecDepth 16384

noncomputable section

open scoped BigOperators

namespace Cert.KernelIdeal.HandValue

open Cert.KernelIdeal Cert.KernelIdeal.Gen
open Idealize.ShloMosaic Idealize.ShloMosaic.TcCoe Idealize.SL.Sem
open Idealize.ShloMosaic.ValueIdx
open Idealize.ShloMosaic.Pipeline (Dat)
open Idealize.ShloMosaic.Tactic

/-! ## The accumulation over one half of the grid, abstractly -/

/-- What one tile adds to node `n` at feature `k`: the rows of the message tile whose destination word, read as a
    signed integer, is `n`. -/
def tileSum1 (x0 : Vec Ideal S512 .i32) (x1 : Vec Ideal S512x128 .bf16) (n : Fin 10112) (k : Fin 128) : EReal :=
  ∑ e' : Fin 512, if (x0 (ix1 e')).toInt = (n.val : Int) then x1 (ix2 e' k) else 0

section Accumulate
variable {N : ℕ}
variable (d : Fin N → Vec Ideal S512 .i32) (mb : Fin N → Vec Ideal S512x128 .bf16)

/-- The tile of point `t`, as a function of a natural number: nothing past the grid. -/
def tileAt1 (t : ℕ) (n : Fin 10112) (k : Fin 128) : EReal :=
  if h : t < N then tileSum1 (d ⟨t, h⟩) (mb ⟨t, h⟩) n k else 0

theorem tileAt1_of_lt (t : ℕ) (h : t < N) (n : Fin 10112) (k : Fin 128) :
    tileAt1 d mb t n k = tileSum1 (d ⟨t, h⟩) (mb ⟨t, h⟩) n k := dif_pos h

variable (s : (n : ℕ) → n < N → Vec Ideal S10112x128 .f32)

/-- The contents after a point do not depend on how the point's number is written. -/
theorem acc_congr1 {a b : ℕ} (e : a = b) (ha : a < N) (hb : b < N) : s a ha = s b hb := by subst e; rfl

/-- A scratch that is reset to zero before the tile of each point ≡ 0 (mod 625) and otherwise carried holds, after
    point `p · 625 + j`, the sum of the tiles of the points `p · 625`, …, `p · 625 + j`. -/
theorem acc_apply1
    (h0 : ∀ (n : ℕ) (h : n < N), n % 625 = 0 → s n h = k1_pay2 (F := Ideal) (d ⟨n, h⟩) (mb ⟨n, h⟩) (k1_pay1 (F := Ideal)))
    (h1 : ∀ (n : ℕ) (h : n < N) (h' : n - 1 < N), ¬n % 625 = 0 → s n h = k1_pay2 (F := Ideal) (d ⟨n, h⟩) (mb ⟨n, h⟩) (s (n - 1) h'))
    (p : Fin 2) (n : Fin 10112) (k : Fin 128) :
    ∀ (j : ℕ) (hj : j < 625) (h : p.val * 625 + j < N),
      s (p.val * 625 + j) h (ix2 n k) = ∑ t ∈ Finset.range (j + 1), tileAt1 d mb (p.val * 625 + t) n k
  | 0, hj, h => by
    rw [h0 _ h (by omega), k1_pay2_apply, k1_pay1_apply, zero_add, Finset.sum_range_one, tileAt1_of_lt d mb _ h]
    rfl
  | j + 1, hj, h => by
    have hp : p.val * 625 + (j + 1) - 1 = p.val * 625 + j := by omega
    have hlt : p.val * 625 + j < N := by omega
    rw [h1 _ h (by omega) (by omega), k1_pay2_apply, acc_congr1 s hp _ hlt,
      acc_apply1 h0 h1 p n k j (by omega) hlt, Finset.sum_range_succ (n := j + 1), tileAt1_of_lt d mb _ h]
    rfl

/-- At the last point of a half: the sum of the half's 625 tiles. -/
theorem acc_last1
    (h0 : ∀ (n : ℕ) (h : n < N), n % 625 = 0 → s n h = k1_pay2 (F := Ideal) (d ⟨n, h⟩) (mb ⟨n, h⟩) (k1_pay1 (F := Ideal)))
    (h1 : ∀ (n : ℕ) (h : n < N) (h' : n - 1 < N), ¬n % 625 = 0 → s n h = k1_pay2 (F := Ideal) (d ⟨n, h⟩) (mb ⟨n, h⟩) (s (n - 1) h'))
    (p : Fin 2) (n : Fin 10112) (k : Fin 128) (h : p.val * 625 + 624 < N) :
    s (p.val * 625 + 624) h (ix2 n k) = ∑ t : Fin 625, tileAt1 d mb (p.val * 625 + t.val) n k := by
  rw [acc_apply1 d mb s h0 h1 p n k 624 (by omega) h, Finset.sum_range]

end Accumulate

/-! ## What each run of the body leaves

Each run of the body stores whole-array pieces; read back, the last piece over the scratch is the
accumulation payload of the loaded tiles and of what the scratch held (the zero fill, at a first point), and the one
piece over the output's buffer is the scratch under a leading unit axis. -/
section Pieces
variable {F : FTy → Type} [FloatOps F]

theorem zero1_1 : (![0] : Fin 1 → Nat) = fun _ => 0 := funext fun a => by fin_cases a; rfl
theorem zero2_1 : (![0, 0] : Fin 2 → Nat) = fun _ => 0 := funext fun a => by fin_cases a <;> rfl
theorem zero3_1 : (![0, 0, 0] : Fin 3 → Nat) = fun _ => 0 := funext fun a => by fin_cases a <;> rfl

/-- A first point of a half: the zero fill, then the point's tile added onto it. -/
theorem scr_A_eq1 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : Hand.cond1_0 i) (hc1 : ¬Hand.cond1_1 i) (x0 : Vec F S512 .i32) (x1 : Vec F S512x128 .bf16) :
    Hand.sout1_A_0 c i arg2 harg2 arg3 harg3 arg4 harg4 arg5 harg5 hc0 hc1 x0 x1 = k1_pay2 x0 x1 (k1_pay1 (F := F)) := by
  unfold Hand.sout1_A_0
  rw [View.read_writes_eq_canon _ _ _ (Hand.scover1_A_0 c i arg2 harg2 arg3 harg3 arg4 harg4 arg5 harg5 hc0 hc1 x0 x1)]
  unfold Hand.kernelRun1_A
  dsimp only
  sl_unfold_words
  rw [View.canon_cons_unit_zero (S := S10112x128) zero2_1]
  simp only [View.readAt_eq_ld, harg2.read_unread, harg3.read_unread, View.readCov_unit_zero (S := S10112x128) _ zero2_1,
    View.ld_unit_zero (S := S512) zero1_1, View.ld_unit_zero (S := S512x128) zero2_1]

/-- A middle point: the point's tile added onto what the scratch held. -/
theorem scr_B_eq1 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬Hand.cond1_0 i) (hc1 : ¬Hand.cond1_1 i) (x0 : Vec F S512 .i32) (x1 : Vec F S512x128 .bf16) (xs0 : Vec F S10112x128 .f32) :
    Hand.sout1_B_0 c i arg2 harg2 arg3 harg3 arg4 harg4 arg5 harg5 hc0 hc1 x0 x1 xs0 = k1_pay2 x0 x1 xs0 := by
  unfold Hand.sout1_B_0
  rw [View.read_writes_eq_canon _ _ _ (Hand.scover1_B_0 c i arg2 harg2 arg3 harg3 arg4 harg4 arg5 harg5 hc0 hc1 x0 x1 xs0)]
  unfold Hand.kernelRun1_B
  dsimp only
  sl_unfold_words
  rw [View.canon_unit_zero zero2_1]
  simp only [View.readAt_eq_ld, harg2.read_unread, harg3.read_unread, harg5.read_unread, View.ld_unit_zero (S := S512) zero1_1,
    View.ld_unit_zero (S := S512x128) zero2_1, View.ld_unit_zero (S := S10112x128) zero2_1]

/-- The last point of a half: the same in the scratch, -/
theorem scr_C_eq1 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬Hand.cond1_0 i) (hc1 : Hand.cond1_1 i) (x0 : Vec F S512 .i32) (x1 : Vec F S512x128 .bf16) (xs0 : Vec F S10112x128 .f32) :
    Hand.sout1_C_0 c i arg2 harg2 arg3 harg3 arg4 harg4 arg5 harg5 hc0 hc1 x0 x1 xs0 = k1_pay2 x0 x1 xs0 := by
  unfold Hand.sout1_C_0
  rw [View.read_writes_eq_canon _ _ _ (Hand.scover1_C_0 c i arg2 harg2 arg3 harg3 arg4 harg4 arg5 harg5 hc0 hc1 x0 x1 xs0)]
  unfold Hand.kernelRun1_C
  dsimp only
  sl_unfold_words
  rw [View.canon_unit_zero zero2_1]
  simp only [View.readAt_eq_ld, harg2.read_unread, harg3.read_unread, harg5.read_unread, View.ld_unit_zero (S := S512) zero1_1,
    View.ld_unit_zero (S := S512x128) zero2_1, View.ld_unit_zero (S := S10112x128) zero2_1]

/-- and the scratch, read back after that store, copied into the output's buffer. -/
theorem out_C_eq1 (c : Dev nD) (i : grid1.Coords) (arg2 : Memref sig .tc .vmem S512 .i32) (harg2 : arg2.IsWhole) (arg3 : Memref sig .tc .vmem S512x128 .bf16) (harg3 : arg3.IsWhole) (arg4 : Memref sig .tc .vmem S1x10112x128 .f32) (harg4 : arg4.IsWhole) (arg5 : Memref sig .tc .vmem S10112x128 .f32) (harg5 : arg5.IsWhole) (hc0 : ¬Hand.cond1_0 i) (hc1 : Hand.cond1_1 i) (x0 : Vec F S512 .i32) (x1 : Vec F S512x128 .bf16) (xs0 : Vec F S10112x128 .f32) :
    Hand.out1_C_2 c i arg2 harg2 arg3 harg3 arg4 harg4 arg5 harg5 hc0 hc1 x0 x1 xs0 = k1_pay3 (k1_pay2 x0 x1 xs0) := by
  unfold Hand.out1_C_2
  rw [View.read_writes_eq_canon _ _ _ (Hand.cover1_C_2 c i arg2 harg2 arg3 harg3 arg4 harg4 arg5 harg5 hc0 hc1 x0 x1 xs0)]
  unfold Hand.kernelRun1_C
  dsimp only
  sl_unfold_words
  rw [View.canon_unit_zero zero3_1]
  simp only [View.readAt_eq_ld, harg2.read_unread, harg3.read_unread, harg5.read_unread, View.readCov_unit_zero (S := S10112x128) _ zero2_1,
    View.ld_unit_zero (S := S512) zero1_1, View.ld_unit_zero (S := S512x128) zero2_1, View.ld_unit_zero (S := S10112x128) zero2_1]

end Pieces

/-! ## The scatter call's arrays and tiles, at the extended reals -/

variable (V : (c : Dev nD) → (b : Ref sig .tc) → Buf (Elt Ideal) ((c : Thread nD τ).loc b))

/-- The destination words and the messages, as the scatter call finds them. -/
abbrev dstArr1 (c : Dev nD) : Vec Ideal S640000 .i32 := V c main_arg2
abbrev msgArr1 (c : Dev nD) : Vec Ideal S640000x128 .bf16 := V c main_v3
/-- Their tiles at point `t`. -/
abbrev dblk1 (c : Dev nD) (t : Fin cfg1.N) : Vec Ideal S512 .i32 := Hand.iblk1 V c 0 t
abbrev mblk1 (c : Dev nD) (t : Fin cfg1.N) : Vec Ideal S512x128 .bf16 := Hand.iblk1 V c 1 t

/-- The printed index maps over the grid: both input tiles are numbered by the linear point, the output block by the half. -/
theorem idx_facts1 : ∀ t : Fin cfg1.N, win1_0.index t (0 : Fin 1) = t.val
    ∧ win1_1.index t (0 : Fin 2) = t.val ∧ win1_1.index t (1 : Fin 2) = 0
    ∧ win1_2.index t (0 : Fin 3) = t.val / 625 ∧ win1_2.index t (1 : Fin 3) = 0 ∧ win1_2.index t (2 : Fin 3) = 0 :=
  (by decide +kernel : ∀ t : Fin grid1.N, _)

/-- Tile `t` of the destination words is words `512 t … 512 t + 511`. -/
theorem dblk1_apply (c : Dev nD) (t : Fin cfg1.N) (j : Fin 512) (h : t.val * 512 + j.val < 640000) :
    dblk1 V c t (ix1 j) = dstArr1 V c (ix1 ⟨t.val * 512 + j.val, h⟩) := by
  obtain ⟨e0, -⟩ := idx_facts1 t
  unfold dblk1 Hand.iblk1
  rw [View.read_apply]
  show V c main_arg2 _ = V c main_arg2 _
  congr 1
  funext a
  apply Fin.ext
  match a with
  | ⟨0, _⟩ => show win1_0.index t (0 : Fin 1) * 512 + 1 * j.val = t.val * 512 + j.val; rw [e0]; omega

/-- Tile `t` of the messages is rows `512 t … 512 t + 511`. -/
theorem mblk1_apply (c : Dev nD) (t : Fin cfg1.N) (j : Fin 512) (k : Fin 128) (h : t.val * 512 + j.val < 640000) :
    mblk1 V c t (ix2 j k) = msgArr1 V c (ix2 ⟨t.val * 512 + j.val, h⟩ k) := by
  obtain ⟨-, e0, e1, -⟩ := idx_facts1 t
  unfold mblk1 Hand.iblk1
  rw [View.read_apply]
  show V c main_v3 _ = V c main_v3 _
  congr 1
  funext a
  apply Fin.ext
  match a with
  | ⟨0, _⟩ => show win1_1.index t (0 : Fin 2) * 512 + 1 * j.val = t.val * 512 + j.val; rw [e0]; omega
  | ⟨1, _⟩ => show win1_1.index t (1 : Fin 2) * 128 + 1 * k.val = k.val; rw [e1]; omega

/-! ## The scratch along the grid -/

/-- The scratch after point `n`. -/
abbrev scr1 (c : Dev nD) (n : ℕ) (h : n < cfg1.N) : Vec Ideal S10112x128 .f32 := (Hand.outsAt1 V c n h).2

/-- At the first point of a half the scratch is zeroed and the point's tile added. -/
theorem scr1_reset (c : Dev nD) (t : Fin cfg1.N) (h0 : t.val % 625 = 0) :
    scr1 V c t.val t.isLt = k1_pay2 (F := Ideal) (dblk1 V c t) (mblk1 V c t) (k1_pay1 (F := Ideal)) := by
  have h1 : ¬t.val % 625 = 624 := by omega
  show (Hand.outsAt1 V c t.val t.isLt).2 = _
  rw [Hand.outsAt1_A V c t h0 h1]
  dsimp only
  exact scr_A_eq1 (F := Ideal) c (grid1.coords t) (Hand.ms1_0 t) (Hand.hs1_0 t) (Hand.ms1_1 t) (Hand.hs1_1 t) (Hand.ms1_2 t) (Hand.hs1_2 t)
    Hand.scM1_0 (Memref.isWhole_whole _) ((Hand.hcond1_0 t).mpr h0) (fun h => h1 ((Hand.hcond1_1 t).mp h)) (Hand.iblk1 V c 0 t) (Hand.iblk1 V c 1 t)

/-- At every other point the point's tile is added onto what the scratch held. -/
theorem scr1_carry (c : Dev nD) (t : Fin cfg1.N) (h0 : ¬t.val % 625 = 0) :
    scr1 V c t.val t.isLt = k1_pay2 (F := Ideal) (dblk1 V c t) (mblk1 V c t) (scr1 V c (t.val - 1) (Nat.lt_of_le_of_lt (Nat.sub_le _ _) t.isLt)) := by
  show (Hand.outsAt1 V c t.val t.isLt).2 = _
  by_cases h1 : t.val % 625 = 624
  · rw [Hand.outsAt1_C V c t h0 h1]
    dsimp only
    exact scr_C_eq1 (F := Ideal) c (grid1.coords t) (Hand.ms1_0 t) (Hand.hs1_0 t) (Hand.ms1_1 t) (Hand.hs1_1 t) (Hand.ms1_2 t) (Hand.hs1_2 t)
      Hand.scM1_0 (Memref.isWhole_whole _) (fun h => h0 ((Hand.hcond1_0 t).mp h)) ((Hand.hcond1_1 t).mpr h1) (Hand.iblk1 V c 0 t) (Hand.iblk1 V c 1 t)
      (Hand.outsAt1 V c (t.val - 1) (Nat.lt_of_le_of_lt (Nat.sub_le _ _) t.isLt)).2
  · rw [Hand.outsAt1_B V c t h0 h1]
    dsimp only
    exact scr_B_eq1 (F := Ideal) c (grid1.coords t) (Hand.ms1_0 t) (Hand.hs1_0 t) (Hand.ms1_1 t) (Hand.hs1_1 t) (Hand.ms1_2 t) (Hand.hs1_2 t)
      Hand.scM1_0 (Memref.isWhole_whole _) (fun h => h0 ((Hand.hcond1_0 t).mp h)) (fun h => h1 ((Hand.hcond1_1 t).mp h)) (Hand.iblk1 V c 0 t) (Hand.iblk1 V c 1 t)
      (Hand.outsAt1 V c (t.val - 1) (Nat.lt_of_le_of_lt (Nat.sub_le _ _) t.isLt)).2

/-- At the last point of a half the output's buffer is left holding the scratch under a leading unit axis. -/
theorem out1_last (c : Dev nD) (t : Fin cfg1.N) (h1 : t.val % 625 = 624) :
    (Hand.outsAt1 V c t.val t.isLt).1 = k1_pay3 (F := Ideal) (scr1 V c t.val t.isLt) := by
  have h0 : ¬t.val % 625 = 0 := by omega
  show (Hand.outsAt1 V c t.val t.isLt).1 = k1_pay3 (F := Ideal) (Hand.outsAt1 V c t.val t.isLt).2
  rw [Hand.outsAt1_C V c t h0 h1]
  dsimp only
  exact (out_C_eq1 (F := Ideal) c (grid1.coords t) (Hand.ms1_0 t) (Hand.hs1_0 t) (Hand.ms1_1 t) (Hand.hs1_1 t) (Hand.ms1_2 t) (Hand.hs1_2 t)
      Hand.scM1_0 (Memref.isWhole_whole _) (fun h => h0 ((Hand.hcond1_0 t).mp h)) ((Hand.hcond1_1 t).mpr h1) (Hand.iblk1 V c 0 t) (Hand.iblk1 V c 1 t)
      (Hand.outsAt1 V c (t.val - 1) (Nat.lt_of_le_of_lt (Nat.sub_le _ _) t.isLt)).2).trans
    (congrArg (k1_pay3 (F := Ideal)) (scr_C_eq1 (F := Ideal) c (grid1.coords t) (Hand.ms1_0 t) (Hand.hs1_0 t) (Hand.ms1_1 t) (Hand.hs1_1 t) (Hand.ms1_2 t) (Hand.hs1_2 t)
      Hand.scM1_0 (Memref.isWhole_whole _) (fun h => h0 ((Hand.hcond1_0 t).mp h)) ((Hand.hcond1_1 t).mpr h1) (Hand.iblk1 V c 0 t) (Hand.iblk1 V c 1 t)
      (Hand.outsAt1 V c (t.val - 1) (Nat.lt_of_le_of_lt (Nat.sub_le _ _) t.isLt)).2).symm)

/-- So after the last point of half `p` the scratch holds the sum of the half's 625 tiles. -/
theorem scr1_last (c : Dev nD) (p : Fin 2) (n : Fin 10112) (k : Fin 128) (h : p.val * 625 + 624 < cfg1.N) :
    scr1 V c (p.val * 625 + 624) h (ix2 n k) = ∑ t : Fin 625, tileAt1 (dblk1 V c) (mblk1 V c) (p.val * 625 + t.val) n k :=
  acc_last1 (dblk1 V c) (mblk1 V c) (scr1 V c) (fun n h hh => scr1_reset V c ⟨n, h⟩ hh) (fun n h h' hh => scr1_carry V c ⟨n, h⟩ hh) p n k h

/-! ## From the output's blocks to its array -/

/-- The two halves' sums, as one array: entry `(p, n, k)` is the sum over the tiles of half `p`. -/
def slabs1 (c : Dev nD) : Vec Ideal S2x10112x128 .f32 := fun i =>
  ∑ t : Fin 625, tileAt1 (dblk1 V c) (mblk1 V c) ((i 0).val * 625 + t.val) (i 1) (i 2)

theorem slabs1_apply (c : Dev nD) (p : Fin 2) (n : Fin 10112) (k : Fin 128) :
    slabs1 V c (ix3 p n k) = ∑ t : Fin 625, tileAt1 (dblk1 V c) (mblk1 V c) (p.val * 625 + t.val) n k := rfl

/-- What the write-back at the last point of a half writes is that half's block of `slabs1`. -/
theorem flushed1_eq (c : Dev nD) (t : Fin cfg1.N) (hf : (cfg1.win 2).flush t = true) :
    (Hand.dat1 (F := Ideal) V c).flushed 2 t = ((cfg1.win 2).blk t).view.read (Elt Ideal) (slabs1 V c) := by
  have hN : cfg1.N = 1250 := N_1
  have h624 : t.val % 625 = 624 := (flush1_2 t).mp hf
  have htlt := t.isLt
  obtain ⟨-, -, -, e0, e1, e2⟩ := idx_facts1 t
  show (cfg1.win 2).cut (grid1.coords t) ((Hand.dat1 (F := Ideal) V c).after 2 t) = _
  rw [Hand.after1_2, out1_last V c t h624]
  funext y
  obtain ⟨a, n, k, rfl⟩ : ∃ (a : Fin 1) (n : Fin 10112) (k : Fin 128), y = ix3 a n k := ⟨y 0, y 1, y 2, eq_ix3 y⟩
  obtain rfl : a = 0 := Subsingleton.elim _ _
  have hp : t.val / 625 < 2 := by omega
  have hemb : ((cfg1.win 2).blk t).view.emb (ix3 (0 : Fin 1) n k) = ix3 (⟨t.val / 625, hp⟩ : Fin 2) n k := by
    funext b
    apply Fin.ext
    match b with
    | ⟨0, _⟩ => show win1_2.index t (0 : Fin 3) * 1 + 1 * 0 = t.val / 625; rw [e0]; omega
    | ⟨1, _⟩ => show win1_2.index t (1 : Fin 3) * 10112 + 1 * n.val = n.val; rw [e1]; omega
    | ⟨2, _⟩ => show win1_2.index t (2 : Fin 3) * 128 + 1 * k.val = k.val; rw [e2]; omega
  have hq : t.val / 625 * 625 + 624 < cfg1.N := by omega
  show k1_pay3 (F := Ideal) (scr1 V c t.val t.isLt) (ix3 (0 : Fin 1) n k) = slabs1 V c (((cfg1.win 2).blk t).view.emb (ix3 (0 : Fin 1) n k))
  rw [hemb, slabs1_apply, k1_pay3_apply, acc_congr1 (scr1 V c) (show t.val = t.val / 625 * 625 + 624 by omega) t.isLt hq]
  exact scr1_last V c ⟨t.val / 625, hp⟩ n k hq

/-- An index of the output array is in point `t`'s block iff each coordinate is in the block's range on its axis. -/
theorem mem_blk1 (t : Fin cfg1.N) (i : S2x10112x128.Idx) :
    i ∈ ((cfg1.win 2).blk t).view.set ↔ ∀ a : Fin 3, win1_2.index t a * S1x10112x128.size a ≤ (i a).val ∧ (i a).val < win1_2.index t a * S1x10112x128.size a + S1x10112x128.size a := by
  show i ∈ ((View.whole main_v4).slice (win1_2.rect t)).set ↔ _
  rw [View.set_slice_whole, Rect.mem_set_unit]
  exact Iff.rfl

/-- Each half's block is the one written back at the half's last point. -/
theorem idx_onto1 (q0 : Fin 2) : ∃ t : Fin cfg1.N, (cfg1.win 2).flush t = true
    ∧ win1_2.index t (0 : Fin 3) = q0.val ∧ win1_2.index t (1 : Fin 3) = 0 ∧ win1_2.index t (2 : Fin 3) = 0 := by
  have hN : cfg1.N = 1250 := N_1
  have hlt : q0.val * 625 + 624 < cfg1.N := by omega
  obtain ⟨-, -, -, e0, e1, e2⟩ := idx_facts1 ⟨q0.val * 625 + 624, hlt⟩
  exact ⟨⟨q0.val * 625 + 624, hlt⟩, (flush1_2 _).mpr (by show (q0.val * 625 + 624) % 625 = 624; omega),
    e0.trans (by show (q0.val * 625 + 624) / 625 = q0.val; omega), e1, e2⟩

/-- Every entry of the output array lies in the block written back at the last point of its half. -/
theorem cover1 (i : S2x10112x128.Idx) :
    ∃ t : Fin cfg1.N, (cfg1.win 2).flush t = true ∧ i ∈ ((cfg1.win 2).blk t).view.set := by
  have hi0 : (i 0).val < 2 := (i 0).isLt
  have hi1 : (i 1).val < 10112 := (i 1).isLt
  have hi2 : (i 2).val < 128 := (i 2).isLt
  obtain ⟨t, hf, e0, e1, e2⟩ := idx_onto1 ⟨(i 0).val, hi0⟩
  have e0' : win1_2.index t (0 : Fin 3) = (i 0).val := e0
  refine ⟨t, hf, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 10112 ≤ (i 1).val ∧ (i 1).val < win1_2.index t (1 : Fin 3) * 10112 + 10112; omega
  | ⟨2, _⟩ => show win1_2.index t (2 : Fin 3) * 128 ≤ (i 2).val ∧ (i 2).val < win1_2.index t (2 : Fin 3) * 128 + 128; omega

/-- The scatter call's output array after the call. -/
abbrev outArr1 (c : Dev nD) : Vec Ideal S2x10112x128 .f32 := (Hand.dat1 (F := Ideal) V c).arrAt 2 cfg1.N

/-- It holds the two halves' sums. -/
theorem parts1_eq (c : Dev nD) : outArr1 V c = slabs1 V c :=
  (Hand.dat1 (F := Ideal) V c).arrAt_eq_of_cover 2 (slabs1 V c) (flushed1_eq V c) cover1

/-- THE VALUE OF THE SCATTER CALL: entry `(p, n, k)` of its output array is the sum, over the 625 tiles of half `p` and
    the 512 edges of each tile, of the message rows whose destination word, read as a signed integer, is `n`. -/
theorem parts_apply (c : Dev nD) (p : Fin 2) (n : Fin 10112) (k : Fin 128) :
    outArr1 V c (ix3 p n k)
      = ∑ t : Fin 625, ∑ e' : Fin 512,
          if (dstArr1 V c (ix1 ⟨(p.val * 625 + t.val) * 512 + e'.val, by omega⟩)).toInt = (n.val : Int)
            then msgArr1 V c (ix2 ⟨(p.val * 625 + t.val) * 512 + e'.val, by omega⟩ k) else 0 := by
  have hN : cfg1.N = 1250 := N_1
  rw [parts1_eq V c, slabs1_apply]
  refine Finset.sum_congr rfl fun t _ => ?_
  have ht : p.val * 625 + t.val < cfg1.N := by omega
  rw [tileAt1_of_lt (dblk1 V c) (mblk1 V c) _ ht]
  unfold tileSum1
  refine Finset.sum_congr rfl fun e' _ => ?_
  rw [dblk1_apply V c ⟨p.val * 625 + t.val, ht⟩ e' (by show (p.val * 625 + t.val) * 512 + e'.val < 640000; omega),
    mblk1_apply V c ⟨p.val * 625 + t.val, ht⟩ e' k (by show (p.val * 625 + t.val) * 512 + e'.val < 640000; omega)]

end Cert.KernelIdeal.HandValue

end
-- ==== Proof.Spec.lean ====
/-
  The specification both programs are compared with: a graph convolution over 10000 nodes with 128 features
  and 640000 weighted edges, as one function of the six argument arrays over the extended reals.

  For an edge e the message is the feature row of its source node scaled by the edge's weight,
      msg e k = x[row e, k] · w[e],
  where row e is the source index read as a signed integer and clamped into [0, 9999] (for a source index
  in range this is the index itself). The support of node n sums the messages of the edges whose
  destination index, read as a signed integer, is n (an edge whose destination names no node contributes
  to no support),
      support n k = Σ_e [dst e = n] · msg e k,
  and the result is the dense projection of the supports plus the bias,
      G (n, j) = (Σ_k support n k · weight[k, j]) + bias[j].
-/
import Idealize.ShloMosaic.PureOps.Ideal
import Idealize.ShloMosaic.Lib.ValueIdx

noncomputable section

open scoped BigOperators

namespace Cert.Spec

open Idealize.ShloMosaic Idealize.ShloMosaic.ValueIdx

/-- The index sets of the argument arrays, over literal extents. -/
abbrev SX : Shape := ⟨2, ![10000, 128]⟩
abbrev SE : Shape := ⟨1, ![640000]⟩
abbrev SW : Shape := ⟨2, ![128, 128]⟩
abbrev SB : Shape := ⟨1, ![128]⟩

/-- The node a source word names: the word read signed, clamped into [0, 9999]. -/
def row (src : SE.Idx → BitVec 32) (e : Fin 640000) : Fin 10000 :=
  ⟨min (src (ix1 e)).toInt.toNat 9999, by omega⟩

/-- The message of edge e at feature k: its source node's feature, scaled by the edge's weight. -/
def msg (x : SX.Idx → EReal) (src : SE.Idx → BitVec 32) (w : SE.Idx → EReal) (e : Fin 640000) (k : Fin 128) : EReal :=
  x (ix2 (row src e) k) * w (ix1 e)

/-- The support of node n at feature k: the sum of the messages of the edges whose destination is n. -/
def support (x : SX.Idx → EReal) (src dst : SE.Idx → BitVec 32) (w : SE.Idx → EReal) (n : Fin 10000) (k : Fin 128) : EReal :=
  ∑ e : Fin 640000, if (dst (ix1 e)).toInt = (n.val : Int) then msg x src w e k else 0

/-- The result at node n and output feature j: the projected support plus the bias. -/
def Gat (x : SX.Idx → EReal) (src dst : SE.Idx → BitVec 32) (w : SE.Idx → EReal) (weight : SW.Idx → EReal)
    (bias : SB.Idx → EReal) (n : Fin 10000) (j : Fin 128) : EReal :=
  (∑ k : Fin 128, support x src dst w n k * weight (ix2 k j)) + bias (ix1 j)

/-- The result array. -/
def G (x : SX.Idx → EReal) (src dst : SE.Idx → BitVec 32) (w : SE.Idx → EReal) (weight : SW.Idx → EReal)
    (bias : SB.Idx → EReal) : SX.Idx → EReal :=
  fun i => Gat x src dst w weight bias ⟨(i 0).val, (i 0).isLt⟩ ⟨(i 1).val, (i 1).isLt⟩

theorem G_apply (x : SX.Idx → EReal) (src dst : SE.Idx → BitVec 32) (w : SE.Idx → EReal) (weight : SW.Idx → EReal)
    (bias : SB.Idx → EReal) (n : Fin 10000) (j : Fin 128) :
    G x src dst w weight bias (ix2 n j) = Gat x src dst w weight bias n j := rfl

/-- Every source word names a node: read signed it lies in [0, 10000). -/
def SrcInRange (src : SE.Idx → BitVec 32) : Prop :=
  ∀ e : Fin 640000, 0 ≤ (src (ix1 e)).toInt ∧ (src (ix1 e)).toInt < 10000

/-- For a source word in range the clamp does nothing. -/
theorem row_val (src : SE.Idx → BitVec 32) (h : SrcInRange src) (e : Fin 640000) :
    (row src e).val = (src (ix1 e)).toInt.toNat := by
  have := h e
  show min (src (ix1 e)).toInt.toNat 9999 = _
  omega

end Cert.Spec

end
-- ==== Proof.SpecSum.lean ====
/-
  The edges, walked as two halves of 625 tiles of 512.

  An edge number e below 640000 = 2 · 625 · 512 is, in exactly one way, (p · 625 + t) · 512 + j with p below 2,
  t below 625 and j below 512: j is e mod 512, and p · 625 + t is e / 512, a tile number below 1250 = 625 + 625
  whose half p says on which side of 625 it lies. So a sum over all edges is the sum over the first half's
  tiles and positions plus the sum over the second half's, in any commutative monoid.
-/
import proofs.«413453_j67723044323421_3_alg».proof.Proof.Spec
import Mathlib.Algebra.BigOperators.Fin
import Mathlib.Data.Fintype.BigOperators
import Mathlib.Data.Fin.SuccPred
import Mathlib.Logic.Equiv.Fin.Basic

open scoped BigOperators

namespace Cert.Spec

/-- A sum over the edges is the double sum over the 1250 tiles of 512 and the positions in a tile. -/
theorem sum_tiles {M : Type*} [AddCommMonoid M] (f : Fin 640000 → M) :
    ∑ e : Fin 640000, f e = ∑ u : Fin 1250, ∑ j : Fin 512, f ⟨u.val * 512 + j.val, by omega⟩ := by
  rw [← Equiv.sum_comp ((finProdFinEquiv (m := 1250) (n := 512)).trans (finCongr (by norm_num : 1250 * 512 = 640000))) f,
    Fintype.sum_prod_type]
  refine Finset.sum_congr rfl fun u _ => Finset.sum_congr rfl fun j _ => ?_
  refine congrArg f (Fin.ext ?_)
  show j.val + 512 * u.val = u.val * 512 + j.val
  omega

/-- A sum over the 1250 tiles is the sum over the first 625 plus the sum over the last 625. -/
theorem sum_two_halves {M : Type*} [AddCommMonoid M] (g : Fin 1250 → M) :
    ∑ u : Fin 1250, g u = (∑ t : Fin 625, g ⟨0 * 625 + t.val, by omega⟩) + ∑ t : Fin 625, g ⟨1 * 625 + t.val, by omega⟩ := by
  rw [← Equiv.sum_comp (finCongr (by norm_num : 625 + 625 = 1250)) g, Fin.sum_univ_add]
  refine congrArg₂ (· + ·) (Finset.sum_congr rfl fun t _ => congrArg g (Fin.ext ?_))
    (Finset.sum_congr rfl fun t _ => congrArg g (Fin.ext ?_))
  · show t.val = 0 * 625 + t.val
    omega
  · show 625 + t.val = 1 * 625 + t.val
    omega

/-- THE EDGES BY HALVES AND TILES: the two halves' sums over 625 tiles of 512 positions add up to the sum over
    all 640000 edges. -/
theorem sum_halves_tiles {M : Type*} [AddCommMonoid M] (f : Fin 640000 → M) :
    (∑ t : Fin 625, ∑ j : Fin 512, f ⟨(0 * 625 + t.val) * 512 + j.val, by omega⟩)
      + (∑ t : Fin 625, ∑ j : Fin 512, f ⟨(1 * 625 + t.val) * 512 + j.val, by omega⟩) = ∑ e : Fin 640000, f e := by
  rw [sum_tiles f, sum_two_halves]

end Cert.Spec
-- ==== Proof.KI.Final.lean ====
/-
  The kernel's result array is the specification. The host tail gives the result at node n and output feature j as
      (Σ_k (P(0, n, k) + P(1, n, k)) · weight[k, j]) + bias[j],
  where P is the scatter call's output; its slab p at (n, k) is the sum, over the 625 tiles of 512 edges of half p,
  of the messages of the edges whose destination is n; a message at (e, k) is row src e of the padded feature table
  at k times the weight of e, and for a source index in range that row is the node's own feature row. The two
  slabs' sums together run over every edge exactly once, so their sum is the node's support.
-/
import proofs.«413453_j67723044323421_3_alg».proof.Proof.KI.Run
import proofs.«413453_j67723044323421_3_alg».proof.Proof.KI.Tail
import proofs.«413453_j67723044323421_3_alg».proof.Proof.KI.Val0b
import proofs.«413453_j67723044323421_3_alg».proof.Proof.KI.Val1
import proofs.«413453_j67723044323421_3_alg».proof.Proof.Spec
import proofs.«413453_j67723044323421_3_alg».proof.Proof.SpecSum

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-- The six argument arrays on core c, and the two calls' output arrays, at their literal types. -/
abbrev xF (c : Dev nD) : Vec Ideal S10000x128 .f32 := m ((c : Thread nD τ).loc main_arg0)
abbrev srcF (c : Dev nD) : Vec Ideal S640000 .i32 := m ((c : Thread nD τ).loc main_arg1)
abbrev dstF (c : Dev nD) : Vec Ideal S640000 .i32 := m ((c : Thread nD τ).loc main_arg2)
abbrev wF (c : Dev nD) : Vec Ideal S640000 .f32 := m ((c : Thread nD τ).loc main_arg3)
abbrev weightF (c : Dev nD) : Vec Ideal S128x128 .f32 := m ((c : Thread nD τ).loc main_arg4)
abbrev biasF (c : Dev nD) : Vec Ideal S128 .f32 := m ((c : Thread nD τ).loc main_arg5)
abbrev tabF (c : Dev nD) : Vec Ideal S10112x128 .bf16 := Gen.V3 m c main_v1
abbrev msgsF (c : Dev nD) : Vec Ideal S640000x128 .bf16 := Hand.msgsArr m c
abbrev partsF (c : Dev nD) : Vec Ideal S2x10112x128 .f32 := Hand.partsArr m c

/-- The gather call's output is the message array: for a source index in range the padded table's row is the
    node's feature row. -/
theorem msgsF_apply (c : Dev nD) (hsrc : Cert.Spec.SrcInRange (srcF m c)) (e : Fin 640000) (k : Fin 128) :
    msgsF m c (ix2 e k) = Cert.Spec.msg (xF m c) (srcF m c) (wF m c) e k := by
  have hs := hsrc e
  have hlt : (srcF m c (ix1 e)).toInt.toNat < 10000 := by omega
  have h := msgs_closed_of (Hand.VA m) c (srcF m c) (wF m c) (tabF m c) (V3_src m c).symm (V3_w m c).symm rfl e k
    ⟨hs.1, by omega⟩
  refine h.trans ?_
  rw [V3_table_apply_litT m c ⟨(srcF m c (ix1 e)).toInt.toNat, by omega⟩ k (tabF m c) rfl (xF m c) rfl, dif_pos hlt]
  unfold Cert.Spec.msg
  refine congrArg (· * wF m c (ix1 e)) (congrArg (fun r : Fin 10000 => xF m c (ix2 r k)) (Fin.ext ?_))
  exact (Cert.Spec.row_val (srcF m c) hsrc e).symm

/-- The scatter call is entered with the destination indices as launched … -/
theorem VB_dst (c : Dev nD) : (Hand.VB m c main_arg2 : Vec Ideal S640000 .i32) = dstF m c :=
  (Hand.V4_apply m c main_arg2).symm.trans (V4_dst m (Hand.outs m) c)

/-- … and with the gather call's output as its message array. -/
theorem VB_msgs (c : Dev nD) : (Hand.VB m c main_v3 : Vec Ideal S640000x128 .bf16) = msgsF m c :=
  (Hand.V4_apply m c main_v3).symm.trans (Hand.V4_main_v3 m c)

/-- Slab p of the scatter call's output at node n and feature k: the messages of the edges of half p whose
    destination is n, summed tile by tile. -/
theorem partsF_apply (c : Dev nD) (hsrc : Cert.Spec.SrcInRange (srcF m c)) (p : Fin 2) (n : Fin 10112) (k : Fin 128) :
    partsF m c (ix3 p n k)
      = ∑ t : Fin 625, ∑ e' : Fin 512,
          if (dstF m c (ix1 (⟨(p.val * 625 + t.val) * 512 + e'.val, by omega⟩ : Fin 640000))).toInt = (n.val : Int)
          then Cert.Spec.msg (xF m c) (srcF m c) (wF m c) ⟨(p.val * 625 + t.val) * 512 + e'.val, by omega⟩ k else 0 := by
  refine (parts_apply (Hand.VB m) c p n k).trans ?_
  refine Finset.sum_congr rfl fun t _ => Finset.sum_congr rfl fun e' _ => ?_
  have hd : dstArr1 (Hand.VB m) c = dstF m c := VB_dst m c
  have hm : msgArr1 (Hand.VB m) c = msgsF m c := VB_msgs m c
  rw [hd, hm, msgsF_apply m c hsrc]

/-- THE KERNEL'S RESULT IS THE SPECIFICATION, for source indices in range. -/
theorem kernel_eq_G (c : Dev nD) (hsrc : Cert.Spec.SrcInRange (m ((c : Thread nD τ).loc main_arg1))) :
    Gen.V6 m (Hand.outs m) c main_v15
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext i
  obtain ⟨n, j, rfl⟩ : ∃ (n : Fin 10000) (j : Fin 128), i = ix2 n j := ⟨i 0, i 1, eq_ix2 i⟩
  rw [V6_result_apply m (Hand.outs m) c n j (partsF m c) (Hand.outs_5 m c).symm (weightF m c) rfl (biasF m c) rfl]
  show _ = Cert.Spec.Gat (xF m c) (srcF m c) (dstF m c) (wF m c) (weightF m c) (biasF m c) n j
  unfold Cert.Spec.Gat
  refine congrArg (· + biasF m c (ix1 j)) (Finset.sum_congr rfl fun k _ => congrArg (· * weightF m c (ix2 k j)) ?_)
  rw [partsF_apply m c hsrc 0 ⟨n.val, by omega⟩ k, partsF_apply m c hsrc 1 ⟨n.val, by omega⟩ k]
  exact Cert.Spec.sum_halves_tiles (fun e : Fin 640000 =>
    if (dstF m c (ix1 e)).toInt = (n.val : Int) then Cert.Spec.msg (xF m c) (srcF m c) (wF m c) e k else 0)

end Cert.KernelIdeal.HandValue

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.RefValue.lean ====
/-
  The reference program's result is the specification, once every source word names a node.

  Read at node n and output feature j, the reference's last stage is the sum of its projection stage and the
  broadcast bias; the projection stage is the sum over k of the aggregated array at (n, k) times the weight at
  (k, j); the aggregated array is the row scatter-add, into zeros, of the scaled messages at the column of
  destination words, so at (n, k) it is the sum over the edges e whose destination word, read signed, is n of
  the scaled message at (e, k); the scaled message at (e, k) is the gathered feature row times the edge's
  weight; and the gathered row is the feature array at the row the index column names, read signed and clamped
  into [0, 9999]. The index column holds, at edge e, the source word when it is not negative and the source
  word plus 10000 when it is: under the source range the first case always holds, so the row is the
  specification's. No finiteness is used anywhere.
-/
import proofs.«413453_j67723044323421_3_alg».proof.Proof.Gen.ReferenceIdeal.Read
import proofs.«413453_j67723044323421_3_alg».proof.Proof.Spec
import proofs.«413453_j67723044323421_3_alg».proof.Proof.LibRows

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## The layout stages' index maps, at indices given by coordinates -/

/-- A column [e, 1] read at (p, 0) reads its vector at p (the source index column). -/
theorem idx5_ix (p : Fin 640000) : idx_main_v5 (ix2 p (0 : Fin 1)) = ix1 p := by
  funext a; match a with | ⟨0, _⟩ => rfl

/-- Likewise the destination index column. -/
theorem idx11_ix (p : Fin 640000) : idx_main_v11 (ix2 p (0 : Fin 1)) = ix1 p := by
  funext a; match a with | ⟨0, _⟩ => rfl

/-- Likewise the weight column. -/
theorem idx7_ix (p : Fin 640000) : idx_main_v7 (ix2 p (0 : Fin 1)) = ix1 p := by
  funext a; match a with | ⟨0, _⟩ => rfl

/-- The weight column spread over the features reads, at (p, k), the column at (p, 0). -/
theorem idx8_ix (p : Fin 640000) (k : Fin 128) : idx_main_v8 (ix2 p k) = ix2 p (0 : Fin 1) := by
  funext a; match a with | ⟨0, _⟩ => rfl | ⟨1, _⟩ => rfl

/-- The bias row spread over the nodes reads, at (n, j), the row at (0, j) … -/
theorem idx15_ix (n : Fin 10000) (j : Fin 128) : idx_main_v15 (ix2 n j) = ix2 (0 : Fin 1) j := by
  funext a; match a with | ⟨0, _⟩ => rfl | ⟨1, _⟩ => rfl

/-- … which reads the bias at j. -/
theorem idx14_ix (j : Fin 128) : idx_main_v14 (ix2 (0 : Fin 1) j) = ix1 j := by
  funext a; match a with | ⟨0, _⟩ => rfl

/-- The projection's left operand index at result (n, j) and contraction coordinate k is (n, k) … -/
theorem lidx13_ix (n : Fin 10000) (j k : Fin 128) : lidx_main_v13 (ix2 n j) k = ix2 n k := by
  funext a; match a with | ⟨0, _⟩ => rfl | ⟨1, _⟩ => rfl

/-- … and its right operand index is (k, j). -/
theorem ridx13_ix (n : Fin 10000) (j k : Fin 128) : ridx_main_v13 (ix2 n j) k = ix2 k j := by
  funext a; match a with | ⟨0, _⟩ => rfl | ⟨1, _⟩ => rfl

/-! ## The index column under the source range -/

/-- A word that is not negative read signed is not below the zero word. -/
theorem slt_zero_of_nonneg (a : BitVec 32) (h : 0 ≤ a.toInt) : IntOp.cmpi .slt a 0#32 = 0#1 := by
  have hz : (0#32 : BitVec 32).toInt = 0 := by decide
  have hf : a.slt 0#32 = false := by
    simp only [BitVec.slt, hz, decide_eq_false_iff_not, not_lt]
    exact h
  show BitVec.ofBool (a.slt 0#32) = 0#1
  rw [hf]
  rfl

/-- Under the source range the selected index word at edge p is the source word itself. -/
theorem v4_ix (x1 : (⟨S640000, .i32⟩ : BufTy).Contents (Elt Ideal)) (hsrc : Cert.Spec.SrcInRange x1) (p : Fin 640000) :
    val_main_v4 (F := Ideal) x1 (ix1 p) = x1 (ix1 p) := by
  rw [val_main_v4_apply, val_main_v1_apply, val_main_v0_apply, val_main_c_apply,
    slt_zero_of_nonneg _ (hsrc p).1, select_zero]

/-- So the index column at (p, 0) is the source word of edge p. -/
theorem v5_ix (x1 : (⟨S640000, .i32⟩ : BufTy).Contents (Elt Ideal)) (hsrc : Cert.Spec.SrcInRange x1) (p : Fin 640000) :
    val_main_v5 (F := Ideal) x1 (ix2 p (0 : Fin 1)) = x1 (ix1 p) := by
  rw [val_main_v5_apply, idx5_ix, v4_ix x1 hsrc p]

/-! ## The gathered rows, the scaled messages, the aggregated array -/

/-- The gathered array at (p, k): the feature array at the specification's row of edge p, column k. -/
theorem v6_ix (x0 : (⟨S10000x128, .f32⟩ : BufTy).Contents (Elt Ideal)) (x1 : (⟨S640000, .i32⟩ : BufTy).Contents (Elt Ideal))
    (hsrc : Cert.Spec.SrcInRange x1) (p : Fin 640000) (k : Fin 128) :
    val_main_v6 (F := Ideal) x0 x1 (ix2 p k) = x0 (ix2 (Cert.Spec.row x1 p) k) := by
  show Host.gather (Cert.LibRows.rowGatherDims 10000 640000 128 gather_S10000x128_S640000x1_S640000x128_1_0_n_n_0_1_1128_wf)
    x0 (val_main_v5 (F := Ideal) x1) (ix2 p k) = _
  have hrow : (⟨min (val_main_v5 (F := Ideal) x1 (ix2 p (0 : Fin 1))).toInt.toNat (10000 - 1), by omega⟩ : Fin 10000)
      = Cert.Spec.row x1 p := Fin.ext (by
    show min (val_main_v5 (F := Ideal) x1 (ix2 p (0 : Fin 1))).toInt.toNat (10000 - 1) = min (x1 (ix1 p)).toInt.toNat 9999
    rw [v5_ix x1 hsrc p])
  exact (Cert.LibRows.rowGather_apply (by decide) _ x0 (val_main_v5 (F := Ideal) x1) p k).trans
    (congrArg (fun r : Fin 10000 => x0 (ix2 r k)) hrow)

/-- The spread weight at (p, k) is the weight of edge p. -/
theorem v8_ix (x3 : (⟨S640000, .f32⟩ : BufTy).Contents (Elt Ideal)) (p : Fin 640000) (k : Fin 128) :
    val_main_v8 (F := Ideal) x3 (ix2 p k) = x3 (ix1 p) := by
  rw [val_main_v8_apply, idx8_ix, val_main_v7_apply, idx7_ix]

/-- The scaled message at (p, k) is the specification's message of edge p at feature k. -/
theorem v9_ix (x0 : (⟨S10000x128, .f32⟩ : BufTy).Contents (Elt Ideal)) (x1 : (⟨S640000, .i32⟩ : BufTy).Contents (Elt Ideal))
    (x3 : (⟨S640000, .f32⟩ : BufTy).Contents (Elt Ideal)) (hsrc : Cert.Spec.SrcInRange x1) (p : Fin 640000) (k : Fin 128) :
    val_main_v9 (F := Ideal) x0 x1 x3 (ix2 p k) = Cert.Spec.msg x0 x1 x3 p k := by
  rw [val_main_v9_apply, v6_ix x0 x1 hsrc p k, v8_ix x3 p k]
  rfl

/-- The zero array reads 0. -/
theorem v10_ix (i : S10000x128.Idx) : val_main_v10 (F := Ideal) i = (0 : EReal) := by
  rw [val_main_v10_apply, val_main_cst_apply]
  exact Ideal.ofBits_zero_f32

/-- The aggregated array at (n, k) is the specification's support of node n at feature k. -/
theorem v12_ix (x0 : (⟨S10000x128, .f32⟩ : BufTy).Contents (Elt Ideal)) (x1 x2 : (⟨S640000, .i32⟩ : BufTy).Contents (Elt Ideal))
    (x3 : (⟨S640000, .f32⟩ : BufTy).Contents (Elt Ideal)) (hsrc : Cert.Spec.SrcInRange x1) (n : Fin 10000) (k : Fin 128) :
    val_main_v12 (F := Ideal) x0 x1 x2 x3 (ix2 n k) = Cert.Spec.support x0 x1 x2 x3 n k := by
  show Host.scatterAdd (F := Ideal) (φ := .f32)
    (Cert.LibRows.rowScatterDims 10000 640000 128 scatter_S10000x128_S640000x1_S640000x128_1_0_0_1_wf)
    (val_main_v10 (F := Ideal)) (val_main_v11 (F := Ideal) x2) (val_main_v9 (F := Ideal) x0 x1 x3) (ix2 n k) = _
  rw [Cert.LibRows.rowScatterAdd_apply, v10_ix, zero_add]
  unfold Cert.Spec.support
  refine Finset.sum_congr rfl fun p _ => ?_
  rw [val_main_v11_apply, idx11_ix, v9_ix x0 x1 x3 hsrc p k]

/-! ## The result -/

/-- THE REFERENCE'S RESULT IS THE SPECIFICATION, under the source range. -/
theorem ref_eq_G (x0 : (⟨S10000x128, .f32⟩ : BufTy).Contents (Elt Ideal)) (x1 x2 : (⟨S640000, .i32⟩ : BufTy).Contents (Elt Ideal))
    (x3 : (⟨S640000, .f32⟩ : BufTy).Contents (Elt Ideal)) (x4 : (⟨S128x128, .f32⟩ : BufTy).Contents (Elt Ideal))
    (x5 : (⟨S128, .f32⟩ : BufTy).Contents (Elt Ideal)) (hsrc : Cert.Spec.SrcInRange x1) :
    Cert.ReferenceIdeal.Read.val_main_v16 (F := Ideal) x0 x1 x2 x3 x4 x5 = Cert.Spec.G x0 x1 x2 x3 x4 x5 := by
  funext i
  obtain ⟨n, j, rfl⟩ : ∃ (n : Fin 10000) (j : Fin 128), i = ix2 n j := ⟨i 0, i 1, eq_ix2 i⟩
  rw [Cert.Spec.G_apply, val_main_v16_apply, val_main_v13_apply, val_main_v15_apply, idx15_ix, val_main_v14_apply, idx14_ix]
  unfold Cert.Spec.Gat
  show (∑ k : Fin 128, val_main_v12 (F := Ideal) x0 x1 x2 x3 (lidx_main_v13 (ix2 n j) k) * x4 (ridx_main_v13 (ix2 n j) k))
      + x5 (ix1 j) = _
  refine congrArg (fun s : EReal => s + x5 (ix1 j)) ?_
  refine Finset.sum_congr rfl fun k _ => ?_
  rw [lidx13_ix, ridx13_ix, v12_ix x0 x1 x2 x3 hsrc n k]

end Cert.ReferenceIdeal.RefValue

end
-- ==== Proof.PreRange.lean ====
/-
  From the printed precondition to the source range.

  The precondition folds five conditions into one bit by "and": the four float arguments finite, each an
  all-reduction of a comparison mask, and last the all-reduction of the mask
      (src ≥ 0) and (src < 10000),
  both comparisons signed, taken elementwise over the 640000 source words. If the folded bit is 1 its last
  conjunct is 1; an all-reduction by "and" that is 1 met a 1 at every element; and a mask element that is 1
  says both comparisons hold of that source word: read signed it is at least 0 and below 10000. The float
  conjuncts are not read, so the statement holds over any float instance.
-/
import proofs.«413453_j67723044323421_3_alg».proof.Pre_finite_inputs
import proofs.«413453_j67723044323421_3_alg».proof.Proof.Gen.Pre_finite_inputs
import proofs.«413453_j67723044323421_3_alg».proof.Proof.Spec
import Idealize.ShloMosaic.Lib.ReduceAll
import Idealize.ShloMosaic.Lib.StableHlo.Predicate
import Idealize.ShloMosaic.Lib.ValueIdx

noncomputable section

namespace Cert.PreRange

open Cert.Pre_finite_inputs Cert.Pre_finite_inputs.Gen
open Idealize.ShloMosaic Idealize.ShloMosaic.ValueIdx Idealize.ShloMosaic.StableHlo.Predicate

/-- The scalar shape has one index. -/
instance : Subsingleton S_.Idx := ⟨fun _ _ => funext fun d => d.elim0⟩

/-- A word that compares signed-greater-or-equal to the zero word is not negative read signed. -/
theorem nonneg_of_sge_zero (w : BitVec 32) (h : IntOp.cmpi .sge w 0#32 = 1#1) : 0 ≤ w.toInt := by
  have hz : (0#32 : BitVec 32).toInt = 0 := by decide
  have h' : BitVec.ofBool ((0#32 : BitVec 32).sle w) = 1#1 := h
  rw [ofBool_eq_one_iff] at h'
  simp only [BitVec.sle, hz, decide_eq_true_eq] at h'
  exact h'

/-- A word that compares signed-less to the word 10000 is below 10000 read signed. -/
theorem lt_of_slt_lit (w : BitVec 32) (h : IntOp.cmpi .slt w 10000#32 = 1#1) : w.toInt < 10000 := by
  have hz : (10000#32 : BitVec 32).toInt = 10000 := toInt_ofNat_small 10000 (by norm_num)
  have h' : BitVec.ofBool (w.slt 10000#32) = 1#1 := h
  rw [ofBool_eq_one_iff] at h'
  simp only [BitVec.slt, hz, decide_eq_true_eq] at h'
  exact h'

/-- THE PRECONDITION DECODED: every source word, read signed, lies in [0, 10000). -/
theorem src_in_range {F : FTy → Type} [FloatOps F] (a0 : FVec F Cert.Pre_finite_inputs.S10000x128 .f32)
    (a1 a2 : IVec Cert.Pre_finite_inputs.S640000 32) (a3 : FVec F Cert.Pre_finite_inputs.S640000 .f32)
    (a4 : FVec F Cert.Pre_finite_inputs.S128x128 .f32) (a5 : FVec F Cert.Pre_finite_inputs.S128 .f32)
    (h : Cert.Pre_finite_inputs.fn (F := F) a0 a1 a2 a3 a4 a5 = fun _ => 1#1) : Cert.Spec.SrcInRange a1 := by
  have h0 : Cert.Pre_finite_inputs.fn (F := F) a0 a1 a2 a3 a4 a5 ix0 = 1#1 := congrFun h ix0
  -- the folded bit is (the float conjuncts) and (the all-reduction of the range mask)
  have h24 : Host.reduce IntOp.andi
      (andi (cmpi .sge a1 (broadcastInDim S640000 ![] Facts.bcast_S_S640000 (constantI S_ 32 0#32)))
        (cmpi .slt a1 (broadcastInDim S640000 ![] Facts.bcast_S_S640000 (constantI S_ 32 10000#32))))
      (constantI S_ 1 1#1) Facts.reducesTo_S640000_S_d0 Facts.h_S_ ix0 = 1#1 :=
    (IntOp.andi_eq_one.1 h0).2
  intro e
  -- so the mask is 1 at edge e, and both of its comparisons are
  have he : IntOp.andi (IntOp.cmpi .sge (a1 (ix1 e)) 0#32) (IntOp.cmpi .slt (a1 (ix1 e)) 10000#32) = 1#1 :=
    Host.reduce_andi_all _ _ _ _ _ h24 (ix1 e)
  obtain ⟨hge, hlt⟩ := IntOp.andi_eq_one.1 he
  exact ⟨nonneg_of_sge_zero _ hge, lt_of_slt_lit _ hlt⟩

end Cert.PreRange

end
-- ==== Proof.lean ====
/-
  A graph convolution — gather the source nodes' feature rows, scale them by the edge weights, sum them onto the
  destination nodes, project densely and add a bias — computed by two one-hot selector matmuls on the TensorCore,
  against its plain reference, over the extended reals.

  The kernel's first call turns the row gather x[src] into (iota == src)ᵀ · x_pad, tile by tile of 1024 edges, and
  scales the rows; its second call turns the segment sum into (iota == dst) · msgs, accumulated in a scratch over
  the 625 tiles of 512 edges of each half of the edge list, one half per value of the leading grid axis; the host
  then adds the two halves, projects and adds the bias, and drops the 112 padding rows. Under the one stated domain
  condition — every source index names a node — a one-hot row selects exactly the row the reference gathers, a
  one-hot column keeps exactly the messages whose destination is the row's node (a destination that names no
  node is dropped by both programs), and the two sides differ only by the order and grouping of sums: both are
      G (n, j) = (Σ_k (Σ_e [dst e = n] · x[src e, k] · w[e]) · weight[k, j]) + bias[j].
  No distributive law is used, so the finiteness of the inputs is never opened.

  The frames of the two kernel programs are read off one run of @main over its six items (three host stretches,
  the two calls, the host tail); the reference's frame is its run with the result dropped; the idealization
  rewrote nothing, so its preservation claim is trivial.
-/
import proofs.«413453_j67723044323421_3_alg».proof.Defs
import proofs.«413453_j67723044323421_3_alg».proof.Proof.Gen.Kernel
import proofs.«413453_j67723044323421_3_alg».proof.Proof.Gen.KernelIdeal
import proofs.«413453_j67723044323421_3_alg».proof.Proof.Gen.ReferenceIdeal
import proofs.«413453_j67723044323421_3_alg».proof.Proof.Gen.Pre_finite_inputs
import proofs.«413453_j67723044323421_3_alg».proof.Proof.Gen.ReferenceIdeal.Run
import proofs.«413453_j67723044323421_3_alg».proof.Proof.Gen.ReferenceIdeal.Read
import proofs.«413453_j67723044323421_3_alg».proof.Proof.KB.Run
import proofs.«413453_j67723044323421_3_alg».proof.Proof.KI.Run
import proofs.«413453_j67723044323421_3_alg».proof.Proof.KI.Final
import proofs.«413453_j67723044323421_3_alg».proof.Proof.RefValue
import proofs.«413453_j67723044323421_3_alg».proof.Proof.PreRange
import Idealize.ShloMosaic.Adequacy
import Idealize.ShloMosaic.Init

noncomputable section

namespace Cert.Proof

open Idealize.ShloMosaic Idealize.SL.Sem

/-- The word-level program runs to the end and leaves its six arguments as launched. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the specification of the (agreeing) arguments: the kernel's by its
    run read back region by region, the reference's by its run read one operation at a time; the source indices are
    in range by the precondition. -/
theorem algebraic : Cert.algebraic_KernelIdeal_ReferenceIdeal := by
  intro m ρ m' ρ' hpre hagree
  have hsrc : ∀ c : Dev Cert.KernelIdeal.nD,
      Cert.Spec.SrcInRange (m ((c.tc : Thread Cert.KernelIdeal.nD Cert.KernelIdeal.τ).loc Cert.KernelIdeal.main_arg1)) :=
    fun c => Cert.PreRange.src_in_range _ _ _ _ _ _ (hpre c)
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HandValue.kernel_eq_G m c (hsrc c)), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, (hagree c).1, (hagree c).2.1, (hagree c).2.2.1, (hagree c).2.2.2.1,
      (hagree c).2.2.2.2.1, (hagree c).2.2.2.2.2]
    exact Cert.ReferenceIdeal.RefValue.ref_eq_G _ _ _ _ _ _ (hsrc c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
